-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x16x64 : Shape := ⟨4, ![2048, 16, 16, 64]⟩
abbrev S2048x256 : Shape := ⟨2, ![2048, 256]⟩
abbrev S_ : Shape := ⟨0, ![]⟩

class Facts : Prop where
  bcast_S_S2048x16x16x64 : S_.BroadcastsInDim S2048x16x16x64 (![] : Fin 0 → Fin S2048x16x16x64.rank)
  reducesTo_S2048x16x16x64_S_d0_1_2_3 : S2048x16x16x64.ReducesTo [0, 1, 2, 3] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S2048x16x16x64 .f32) (main_arg1 : FVec F S2048x256 .f32) (main_arg2 : FVec F S2048x256 .f32) : IVec S_ 1 :=
  let main_v0 : FVec F S2048x16x16x64 .f32 := Host.absf main_arg0
  let main_cst : FVec F S_ .f32 := constant S_ .f32 0x7F800000#32
  let main_v1 : FVec F S2048x16x16x64 .f32 := broadcastInDim S2048x16x16x64 ![] bcast_S_S2048x16x16x64 main_cst
  let main_v2 : IVec S2048x16x16x64 1 := cmpf .olt main_v0 main_v1
  let main_c : IVec S_ 1 := constantI S_ 1 1#1
  let main_v3 : IVec S_ 1 := (fun x v => Host.reduce IntOp.andi x v reducesTo_S2048x16x16x64_S_d0_1_2_3 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  main_v13
-- ==== Kernel.lean ====
abbrev S2048x16x16x64 : Shape := ⟨4, ![2048, 16, 16, 64]⟩
abbrev S2048x256 : Shape := ⟨2, ![2048, 256]⟩
abbrev S2048x256x64 : Shape := ⟨3, ![2048, 256, 64]⟩
abbrev S64x16x16x64 : Shape := ⟨4, ![64, 16, 16, 64]⟩
abbrev S64x256 : Shape := ⟨2, ![64, 256]⟩
abbrev S64x256x64 : Shape := ⟨3, ![64, 256, 64]⟩
abbrev S64x256x1 : Shape := ⟨3, ![64, 256, 1]⟩
abbrev S64x256x16 : Shape := ⟨3, ![64, 256, 16]⟩
abbrev S64x256x16x1 : Shape := ⟨4, ![64, 256, 16, 1]⟩
abbrev S64x256x1x16 : Shape := ⟨4, ![64, 256, 1, 16]⟩
abbrev S64x256x16x16 : Shape := ⟨4, ![64, 256, 16, 16]⟩
abbrev S64x256x256 : Shape := ⟨3, ![64, 256, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x16x16x64, .f32⟩
  | .hbm, ⟨1, _⟩ => ⟨S2048x256, .f32⟩
  | .hbm, ⟨2, _⟩ => ⟨S2048x256, .f32⟩
  | .hbm, ⟨3, _⟩ => ⟨S2048x256x64, .f32⟩
  | .local _ .vmem, ⟨0, _⟩ => ⟨S64x16x16x64, .f32⟩
  | .local _ .vmem, ⟨1, _⟩ => ⟨S64x16x16x64, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x256x64, .f32⟩
  | .local _ .vmem, ⟨7, _⟩ => ⟨S64x256x64, .f32⟩
  | _, _ => ⟨S2048x16x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x16x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x256_S64x256_0_0 : ∀ a, (![0, 0] : Fin 2 → Nat) a + S64x256.size a ≤ S64x256.size a
  h_S64x256 : 0 < S64x256.numel
  shapeCasts_S64x256_S64x256x1 : S64x256.ShapeCasts S64x256x1
  iota_S64x256x16_d2_w32 : S64x256x16.Iotas .tc 32 [2]
  broadcasts_S64x256x1_S64x256x16 : S64x256x1.Broadcasts S64x256x16
  shapeCasts_S64x256x1_S64x256x1 : S64x256x1.ShapeCasts S64x256x1
  bitsLt_bf16_f32 : FTy.bits .bf16 < FTy.bits .f32
  shapeCasts_S64x256x16_S64x256x16x1 : S64x256x16.ShapeCasts S64x256x16x1
  shapeCasts_S64x256x16_S64x256x1x16 : S64x256x16.ShapeCasts S64x256x1x16
  broadcasts_S64x256x16x1_S64x256x16x16 : S64x256x16x1.Broadcasts S64x256x16x16
  broadcasts_S64x256x1x16_S64x256x16x16 : S64x256x1x16.Broadcasts S64x256x16x16
  shapeCasts_S64x256x16x16_S64x256x256 : S64x256x16x16.ShapeCasts S64x256x256
  inb_S64x16x16x64_S64x16x16x64_0_0_0_0 : ∀ a, (![0, 0, 0, 0] : Fin 4 → Nat) a + S64x16x16x64.size a ≤ S64x16x16x64.size a
  h_S64x16x16x64 : 0 < S64x16x16x64.numel
  shapeCasts_S64x16x16x64_S64x256x64 : S64x16x16x64.ShapeCasts S64x256x64
  inb_S64x256x64_S64x256x64_0_0_0 : ∀ a, (![0, 0, 0] : Fin 3 → Nat) a + S64x256x64.size a ≤ S64x256x64.size a
  h_S64x256x64 : 0 < S64x256x64.numel
  dot_S64x256x256_S64x256x64_S64x256x64_2_1_1_2_0_0_wf : DotDims.WF S64x256x256 S64x256x64 S64x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16x16x64.size a ≤ S2048x16x16x64.size a
  hwx0_0 : ∀ i : grid0.Coords, EltTy.bits .f32 = 32 ∨ (Rect.block (s := S2048x16x16x64) S64x16x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S2048x256.size a
  hwx0_1 : ∀ i : grid0.Coords, EltTy.bits .f32 = 32 ∨ (Rect.block (s := S2048x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S2048x256.size a
  hwx0_2 : ∀ i : grid0.Coords, EltTy.bits .f32 = 32 ∨ (Rect.block (s := S2048x256) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256x64.size a ≤ S2048x256x64.size a
  hwx0_3 : ∀ i : grid0.Coords, EltTy.bits .f32 = 32 ∨ (Rect.block (s := S2048x256x64) S64x256x64.size (cc0_transform_3 i) (hinb0_3 i)).WholeWords (EltTy.packing .f32)

variable [Facts₀]

def dot_S64x256x256_S64x256x64_S64x256x64_2_1_1_2_0_0 : DotDims S64x256x256 S64x256x64 S64x256x64 where
  lhsContracting := [2]
  rhsContracting := [1]
  lhsNonContracting := [1]
  rhsNonContracting := [2]
  lhsBatch := [0]
  rhsBatch := [0]
  wf := dot_S64x256x256_S64x256x64_S64x256x64_2_1_1_2_0_0_wf

abbrev win0_0 : Pipeline.Window sig grid0 :=
  Pipeline.Window.ofSpec (Memref.whole main_arg0) S64x16x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x16x16x64 : Shape := ⟨4, ![2048, 16, 16, 64]⟩
abbrev S2048x256 : Shape := ⟨2, ![2048, 256]⟩
abbrev S_ : Shape := ⟨0, ![]⟩
abbrev S2048x256x1 : Shape := ⟨3, ![2048, 256, 1]⟩
abbrev S2048 : Shape := ⟨1, ![2048]⟩
abbrev S2048x1 : Shape := ⟨2, ![2048, 1]⟩
abbrev S2048x256x3 : Shape := ⟨3, ![2048, 256, 3]⟩
abbrev S2048x256x64 : Shape := ⟨3, ![2048, 256, 64]⟩

abbrev nBuf : Space → Nat
  | .hbm => 181
  | .vmem => 0
  | .smem => 0
  | _ => 0

abbrev hbmTy0_0 (i : Nat) : BufTy := match i % 128 with
  | 0 => ⟨S2048x16x16x64, .f32⟩
  | 1 => ⟨S2048x256, .f32⟩
  | 2 => ⟨S2048x256, .f32⟩
  | 3 => ⟨S_, .f32⟩
  | 4 => ⟨S2048x256, .f32⟩
  | 5 => ⟨S2048x256, .f32⟩
  | 6 => ⟨S_, .f32⟩
  | 7 => ⟨S2048x256, .f32⟩
  | 8 => ⟨S2048x256, .f32⟩
  | 9 => ⟨S2048x256, .f32⟩
  | 10 => ⟨S2048x256, .i32⟩
  | 11 => ⟨S_, .i32⟩
  | 12 => ⟨S_, .i32⟩
  | 13 => ⟨S_, .i32⟩
  | 14 => ⟨S2048x256, .i32⟩
  | 15 => ⟨S2048x256, .i32⟩
  | 16 => ⟨S_, .i32⟩
  | 17 => ⟨S2048x256, .i32⟩
  | 18 => ⟨S2048x256, .i32⟩
  | 19 => ⟨S2048x256, .f32⟩
  | 20 => ⟨S2048x256, .i32⟩
  | 21 => ⟨S_, .i32⟩
  | 22 => ⟨S_, .i32⟩
  | 23 => ⟨S_, .i32⟩
  | 24 => ⟨S2048x256, .i32⟩
  | 25 => ⟨S2048x256, .i32⟩
  | 26 => ⟨S_, .i32⟩
  | 27 => ⟨S2048x256, .i32⟩
  | 28 => ⟨S2048x256, .i32⟩
  | 29 => ⟨S2048x256, .f32⟩
  | 30 => ⟨S2048x256, .f32⟩
  | 31 => ⟨S2048x256x1, .f32⟩
  | 32 => ⟨S2048x256, .f32⟩
  | 33 => ⟨S2048x256, .f32⟩
  | 34 => ⟨S2048x256x1, .f32⟩
  | 35 => ⟨S2048, .i32⟩
  | 36 => ⟨S2048x1, .i32⟩
  | 37 => ⟨S_, .i32⟩
  | 38 => ⟨S2048x1, .i32⟩
  | 39 => ⟨S2048x1, .i1⟩
  | 40 => ⟨S_, .i32⟩
  | 41 => ⟨S2048x1, .i32⟩
  | 42 => ⟨S2048x1, .i32⟩
  | 43 => ⟨S2048x1, .i32⟩
  | 44 => ⟨S_, .i32⟩
  | 45 => ⟨S2048x256, .i32⟩
  | 46 => ⟨S2048x256, .i1⟩
  | 47 => ⟨S_, .i32⟩
  | 48 => ⟨S2048x256, .i32⟩
  | 49 => ⟨S2048x256, .i32⟩
  | 50 => ⟨S2048x256, .i32⟩
  | 51 => ⟨S_, .i32⟩
  | 52 => ⟨S2048x256, .i32⟩
  | 53 => ⟨S2048x256, .i1⟩
  | 54 => ⟨S_, .i32⟩
  | 55 => ⟨S2048x256, .i32⟩
  | 56 => ⟨S2048x256, .i32⟩
  | 57 => ⟨S2048x256, .i32⟩
  | 58 => ⟨S2048x256, .i32⟩
  | 59 => ⟨S2048x256x1, .i32⟩
  | 60 => ⟨S2048x256x1, .i32⟩
  | 61 => ⟨S2048x256x1, .i32⟩
  | 62 => ⟨S2048x256x3, .i32⟩
  | 63 => ⟨S2048x256x64, .f32⟩
  | 64 => ⟨S_, .i32⟩
  | 65 => ⟨S2048x256, .i32⟩
  | 66 => ⟨S2048x256, .i32⟩
  | 67 => ⟨S_, .i32⟩
  | 68 => ⟨S2048x1, .i32⟩
  | 69 => ⟨S2048x1, .i1⟩
  | 70 => ⟨S_, .i32⟩
  | 71 => ⟨S2048x1, .i32⟩
  | 72 => ⟨S2048x1, .i32⟩
  | 73 => ⟨S2048x1, .i32⟩
  | 74 => ⟨S_, .i32⟩
  | 75 => ⟨S2048x256, .i32⟩
  | 76 => ⟨S2048x256, .i1⟩
  | 77 => ⟨S_, .i32⟩
  | 78 => ⟨S2048x256, .i32⟩
  | 79 => ⟨S2048x256, .i32⟩
  | 80 => ⟨S2048x256, .i32⟩
  | 81 => ⟨S_, .i32⟩
  | 82 => ⟨S2048x256, .i32⟩
  | 83 => ⟨S2048x256, .i1⟩
  | 84 => ⟨S_, .i32⟩
  | 85 => ⟨S2048x256, .i32⟩
  | 86 => ⟨S2048x256, .i32⟩
  | 87 => ⟨S2048x256, .i32⟩
  | 88 => ⟨S2048x256, .i32⟩
  | 89 => ⟨S2048x256x1, .i32⟩
  | 90 => ⟨S2048x256x1, .i32⟩
  | 91 => ⟨S2048x256x1, .i32⟩
  | 92 => ⟨S2048x256x3, .i32⟩
  | 93 => ⟨S2048x256x64, .f32⟩
  | 94 => ⟨S_, .i32⟩
  | 95 => ⟨S2048x256, .i32⟩
  | 96 => ⟨S2048x256, .i32⟩
  | 97 => ⟨S_, .i32⟩
  | 98 => ⟨S2048x1, .i32⟩
  | 99 => ⟨S2048x1, .i1⟩
  | 100 => ⟨S_, .i32⟩
  | 101 => ⟨S2048x1, .i32⟩
  | 102 => ⟨S2048x1, .i32⟩
  | 103 => ⟨S2048x1, .i32⟩
  | 104 => ⟨S_, .i32⟩
  | 105 => ⟨S2048x256, .i32⟩
  | 106 => ⟨S2048x256, .i1⟩
  | 107 => ⟨S_, .i32⟩
  | 108 => ⟨S2048x256, .i32⟩
  | 109 => ⟨S2048x256, .i32⟩
  | 110 => ⟨S2048x256, .i32⟩
  | 111 => ⟨S_, .i32⟩
  | 112 => ⟨S2048x256, .i32⟩
  | 113 => ⟨S2048x256, .i1⟩
  | 114 => ⟨S_, .i32⟩
  | 115 => ⟨S2048x256, .i32⟩
  | 116 => ⟨S2048x256, .i32⟩
  | 117 => ⟨S2048x256, .i32⟩
  | 118 => ⟨S2048x256, .i32⟩
  | 119 => ⟨S2048x256x1, .i32⟩
  | 120 => ⟨S2048x256x1, .i32⟩
  | 121 => ⟨S2048x256x1, .i32⟩
  | 122 => ⟨S2048x256x3, .i32⟩
  | 123 => ⟨S2048x256x64, .f32⟩
  | 124 => ⟨S_, .i32⟩
  | 125 => ⟨S2048x256, .i32⟩
  | 126 => ⟨S2048x256, .i32⟩
  | 127 => ⟨S_, .i32⟩
  | _ => ⟨S2048x16x16x64, .f32⟩

abbrev hbmTy0_1 (i : Nat) : BufTy := match i % 128 with
  | 0 => ⟨S2048x256, .i32⟩
  | 1 => ⟨S2048x256, .i32⟩
  | 2 => ⟨S_, .i32⟩
  | 3 => ⟨S2048x1, .i32⟩
  | 4 => ⟨S2048x1, .i1⟩
  | 5 => ⟨S_, .i32⟩
  | 6 => ⟨S2048x1, .i32⟩
  | 7 => ⟨S2048x1, .i32⟩
  | 8 => ⟨S2048x1, .i32⟩
  | 9 => ⟨S_, .i32⟩
  | 10 => ⟨S2048x256, .i32⟩
  | 11 => ⟨S2048x256, .i1⟩
  | 12 => ⟨S_, .i32⟩
  | 13 => ⟨S2048x256, .i32⟩
  | 14 => ⟨S2048x256, .i32⟩
  | 15 => ⟨S2048x256, .i32⟩
  | 16 => ⟨S_, .i32⟩
  | 17 => ⟨S2048x256, .i32⟩
  | 18 => ⟨S2048x256, .i1⟩
  | 19 => ⟨S_, .i32⟩
  | 20 => ⟨S2048x256, .i32⟩
  | 21 => ⟨S2048x256, .i32⟩
  | 22 => ⟨S2048x256, .i32⟩
  | 23 => ⟨S2048x256, .i32⟩
  | 24 => ⟨S2048x256x1, .i32⟩
  | 25 => ⟨S2048x256x1, .i32⟩
  | 26 => ⟨S2048x256x1, .i32⟩
  | 27 => ⟨S2048x256x3, .i32⟩
  | 28 => ⟨S2048x256x64, .f32⟩
  | 29 => ⟨S_, .f32⟩
  | 30 => ⟨S2048x256x1, .f32⟩
  | 31 => ⟨S2048x256x1, .f32⟩
  | 32 => ⟨S2048x256x64, .f32⟩
  | 33 => ⟨S2048x256x64, .f32⟩
  | 34 => ⟨S2048x256x64, .f32⟩
  | 35 => ⟨S2048x256x64, .f32⟩
  | 36 => ⟨S2048x256x64, .f32⟩
  | 37 => ⟨S_, .f32⟩
  | 38 => ⟨S2048x256x1, .f32⟩
  | 39 => ⟨S2048x256x1, .f32⟩
  | 40 => ⟨S2048x256x64, .f32⟩
  | 41 => ⟨S2048x256x64, .f32⟩
  | 42 => ⟨S2048x256x64, .f32⟩
  | 43 => ⟨S2048x256x64, .f32⟩
  | 44 => ⟨S2048x256x64, .f32⟩
  | 45 => ⟨S_, .f32⟩
  | 46 => ⟨S2048x256x1, .f32⟩
  | 47 => ⟨S2048x256x1, .f32⟩
  | 48 => ⟨S2048x256x64, .f32⟩
  | 49 => ⟨S2048x256x64, .f32⟩
  | 50 => ⟨S2048x256x64, .f32⟩
  | 51 => ⟨S2048x256x64, .f32⟩
  | 52 => ⟨S2048x256x64, .f32⟩
  | _ => ⟨S2048x16x16x64, .f32⟩

abbrev hbmTy (i : Nat) : BufTy := match i / 128 with
  | 0 => hbmTy0_0 i
  | 1 => hbmTy0_1 i
  | _ => ⟨S2048x16x16x64, .f32⟩

abbrev bufTy : (tb : Table) → Fin (tcTables nBuf tb) → BufTy
  | .hbm, ⟨i, _⟩ => hbmTy i
  | _, _ => ⟨S2048x16x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_c_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_v41 : Ref sig .tc := ⟨.hbm, 68, rfl⟩
abbrev main_v42 : Ref sig .tc := ⟨.hbm, 69, rfl⟩
abbrev main_c_12 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_13 : Ref sig .tc := ⟨.hbm, 74, rfl⟩
abbrev main_v46 : Ref sig .tc := ⟨.hbm, 75, rfl⟩
abbrev main_v47 : Ref sig .tc := ⟨.hbm, 76, rfl⟩
abbrev main_c_14 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_15 : Ref sig .tc := ⟨.hbm, 81, rfl⟩
abbrev main_v51 : Ref sig .tc := ⟨.hbm, 82, rfl⟩
abbrev main_v52 : Ref sig .tc := ⟨.hbm, 83, rfl⟩
abbrev main_c_16 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_17 : Ref sig .tc := ⟨.hbm, 94, rfl⟩
abbrev main_v62 : Ref sig .tc := ⟨.hbm, 95, rfl⟩
abbrev main_v63 : Ref sig .tc := ⟨.hbm, 96, rfl⟩
abbrev main_c_18 : Ref sig .tc := ⟨.hbm, 97, rfl⟩
abbrev main_v64 : Ref sig .tc := ⟨.hbm, 98, rfl⟩
abbrev main_v65 : Ref sig .tc := ⟨.hbm, 99, rfl⟩
abbrev main_c_19 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_20 : Ref sig .tc := ⟨.hbm, 104, rfl⟩
abbrev main_v69 : Ref sig .tc := ⟨.hbm, 105, rfl⟩
abbrev main_v70 : Ref sig .tc := ⟨.hbm, 106, rfl⟩
abbrev main_c_21 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_22 : Ref sig .tc := ⟨.hbm, 111, rfl⟩
abbrev main_v74 : Ref sig .tc := ⟨.hbm, 112, rfl⟩
abbrev main_v75 : Ref sig .tc := ⟨.hbm, 113, rfl⟩
abbrev main_c_23 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_24 : Ref sig .tc := ⟨.hbm, 124, rfl⟩
abbrev main_v85 : Ref sig .tc := ⟨.hbm, 125, rfl⟩
abbrev main_v86 : Ref sig .tc := ⟨.hbm, 126, rfl⟩
abbrev main_c_25 : Ref sig .tc := ⟨.hbm, 127, rfl⟩
abbrev main_v87 : Ref sig .tc := ⟨.hbm, 128, rfl⟩
abbrev main_v88 : Ref sig .tc := ⟨.hbm, 129, rfl⟩
abbrev main_c_26 : Ref sig .tc := ⟨.hbm, 130, rfl⟩
abbrev main_v89 : Ref sig .tc := ⟨.hbm, 131, rfl⟩
abbrev main_v90 : Ref sig .tc := ⟨.hbm, 132, rfl⟩
abbrev main_c_27 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_28 : Ref sig .tc := ⟨.hbm, 137, rfl⟩
abbrev main_v94 : Ref sig .tc := ⟨.hbm, 138, rfl⟩
abbrev main_v95 : Ref sig .tc := ⟨.hbm, 139, rfl⟩
abbrev main_c_29 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_c_30 : Ref sig .tc := ⟨.hbm, 144, rfl⟩
abbrev main_v99 : Ref sig .tc := ⟨.hbm, 145, rfl⟩
abbrev main_v100 : Ref sig .tc := ⟨.hbm, 146, rfl⟩
abbrev main_c_31 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_32 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_33 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_34 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩

abbrev nD : Nat := 1
abbrev τ : Topo := Topo.v7x

variable {F : FTy → Type} [FloatOps F]

class Facts₀ : Prop where
  bcast_S_S2048x256 : S_.BroadcastsInDim S2048x256 (![] : Fin 0 → Fin S2048x256.rank)
  bcast_S2048x256_S2048x256x1_0_1 : S2048x256.BroadcastsInDim S2048x256x1 (![0, 1] : Fin 2 → Fin S2048x256x1.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x256_0_1 : S2048x1.BroadcastsInDim S2048x256 (![0, 1] : Fin 2 → Fin S2048x256.rank)
  concatenates_S2048x256x1_S2048x256x1_S2048x256x1_S2048x256x3_d2 : Shape.Concatenates [S2048x256x1, S2048x256x1, S2048x256x1] S2048x256x3 2
  bcast_S_S2048x256x1 : S_.BroadcastsInDim S2048x256x1 (![] : Fin 0 → Fin S2048x256x1.rank)
  bcast_S2048x256x1_S2048x256x64_0_1_2 : S2048x256x1.BroadcastsInDim S2048x256x64 (![0, 1, 2] : Fin 3 → Fin S2048x256x64.rank)
  gather_S2048x16x16x64_S2048x256x3_S2048x256x64_2_012_n_n_012_2_11164_wf : GatherDims.WF S2048x16x16x64 S2048x256x3 S2048x256x64 [2] [0, 1, 2] [] [0, 1, 2] [] 2 ![1, 1, 1, 64]

variable [Facts₀]

def gather_S2048x16x16x64_S2048x256x3_S2048x256x64_2_012_n_n_012_2_11164 : GatherDims S2048x16x16x64 S2048x256x3 S2048x256x64 where
  offsetDims := [2]
  collapsedSliceDims := [0, 1, 2]
  operandBatchingDims := []
  startIndicesBatchingDims := []
  startIndexMap := [0, 1, 2]
  indexVectorDim := 2
  sliceSizes := ![1, 1, 1, 64]
  wf := gather_S2048x16x16x64_S2048x256x3_S2048x256x64_2_012_n_n_012_2_11164_wf

class Facts : Prop extends Facts₀ where

variable [Facts]
-- ==== Proof.Spec.lean ====
/-
  Bilinear sampling of a 16 × 16 grid of feature vectors, as a function of the arguments.

  A sample position `a ∈ [0, 1]` along an axis of 16 nodes is scaled to `a · 15`; its CELL is the integer part of
  that, clamped into `[0, 14]` (so that the cell's right neighbour `cell + 1` is still a node), and its FRACTION is
  `a · 15 − cell`. The sample of a grid `M` at `(a, b)` — `a` along the columns, `b` along the rows — blends the four
  nodes around it: first along the columns with weights `1 − fx`, `fx`, then along the rows with `1 − fy`, `fy`
  (`blend`, `pix`). The same number is the full double sum over all 256 nodes of `M` against the outer product of two
  TWO-HOT weight vectors (`hat`): `1 − f` at the cell, `f` at its neighbour, `0` elsewhere (`hat_sum`). The two
  forms differ by distributing the row weights over the column blend, which on the extended reals needs every number
  involved to be finite.
-/
import Idealize.ShloMosaic.PureOps.Ideal
import Idealize.ShloMosaic.Lib.ValueIdx

noncomputable section

open scoped BigOperators

namespace Cert.Bilinear

open Idealize.ShloMosaic Idealize.ShloMosaic.ValueIdx

/-- The scale `15 = 16 − 1`, as the word that denotes it. -/
abbrev scale : EReal := Ideal.ofBits .f32 0x41700000#32
/-- The unit weight, as the word that denotes it. -/
abbrev one : EReal := Ideal.ofBits .f32 0x3F800000#32
/-- The zero weight, as the word that denotes it. -/
abbrev zero : EReal := Ideal.ofBits .f32 0x00000000#32

/-- A sample position scaled to node units. -/
def pos (a : EReal) : EReal := a * scale

/-- The cell of a sample position: the integer part of the scaled position, clamped into `[0, 14]`. -/
def cell (a : EReal) : BitVec 32 :=
  IntOp.minsi 14#32 (IntOp.maxsi 0#32 (Ideal.fptosi 32 (Ideal.liftRound Int.floor (pos a))))

/-- The fraction of a sample position inside its cell. -/
def frac (a : EReal) : EReal := pos a - (((cell a).toInt : ℝ) : EReal)

/-- The node a word names, clamped into the grid (what an indexed read of an axis of 16 does with its index). -/
def node (w : BitVec 32) : Fin 16 := ⟨min w.toInt.toNat 15, by omega⟩

/-- The blend of four neighbouring values: along the columns by `fx`, then along the rows by `fy`. -/
def blend (m00 m01 m10 m11 fx fy : EReal) : EReal :=
  (m00 * (one - fx) + m01 * fx) * (one - fy) + (m10 * (one - fx) + m11 * fx) * fy

/-- The sample of the grid `M` (rows, then columns) at column position `a` and row position `b`. -/
def pix (M : Fin 16 → Fin 16 → EReal) (a b : EReal) : EReal :=
  blend (M (node (cell b)) (node (cell a))) (M (node (cell b)) (node (cell a + 1#32)))
    (M (node (cell b + 1#32)) (node (cell a))) (M (node (cell b + 1#32)) (node (cell a + 1#32))) (frac a) (frac b)

/-- The two-hot weight of node `h` for the sample position `a`: `1 − frac` at the cell, `frac` at its neighbour,
    zero elsewhere. -/
def hat (a : EReal) (h : Fin 16) : EReal :=
  Scalar.select (IntOp.cmpi .eq (BitVec.ofNat 32 h.val) (cell a)) (one - frac a)
    (Scalar.select (IntOp.cmpi .eq (BitVec.ofNat 32 h.val) (cell a + 1#32)) (frac a) zero)

/-- The result at complex `c`, sample `p`, feature `f`: the sample of complex `c`'s grid of feature `f` at the
    positions `(u, v)` of sample `p`. -/
def gAt (mp : (⟨4, ![2048, 16, 16, 64]⟩ : Shape).Idx → EReal) (u v : (⟨2, ![2048, 256]⟩ : Shape).Idx → EReal)
    (c : Fin 2048) (p : Fin 256) (f : Fin 64) : EReal :=
  pix (fun h w => mp (ix4 c h w f)) (u (ix2 c p)) (v (ix2 c p))

/-- The whole result array. -/
def G (mp : (⟨4, ![2048, 16, 16, 64]⟩ : Shape).Idx → EReal) (u v : (⟨2, ![2048, 256]⟩ : Shape).Idx → EReal) :
    (⟨3, ![2048, 256, 64]⟩ : Shape).Idx → EReal :=
  fun j => gAt mp u v (j 0) (j 1) (j 2)

/-- The cell lies in `[0, 14]`: the clamp's two comparisons, read as signed integers. -/
theorem cell_bounds (a : EReal) : 0 ≤ (cell a).toInt ∧ (cell a).toInt ≤ 14 := by
  unfold cell
  generalize Ideal.fptosi 32 (Ideal.liftRound Int.floor (pos a)) = z
  unfold IntOp.minsi IntOp.maxsi
  simp only [BitVec.slt]
  have h14 : (14#32 : BitVec 32).toInt = 14 := by decide
  have h0 : (0#32 : BitVec 32).toInt = 0 := by decide
  split_ifs <;> simp_all <;> omega

theorem G_apply (mp : (⟨4, ![2048, 16, 16, 64]⟩ : Shape).Idx → EReal) (u v : (⟨2, ![2048, 256]⟩ : Shape).Idx → EReal)
    (c : Fin 2048) (p : Fin 256) (f : Fin 64) : G mp u v (ix3 c p f) = gAt mp u v c p f := rfl

end Cert.Bilinear

end
-- ==== Proof.RefValue.lean ====
import proofs.«146209_j30502857736195_1_alg».proof.Proof.Gen.ReferenceIdeal.Read
import Idealize.ShloMosaic.Lib.Pipeline.Value
import proofs.«146209_j30502857736195_1_alg».proof.Proof.Spec
/-
  The reference program computes the bilinear sample array.

  The program scales the two sample positions by 15, floors and clamps them into cells, and keeps the remainders as
  fractions. It then reads the grid array four times, each time at a triple (complex, row, column) assembled from three
  index columns: the complex's own number, a row cell or its successor, and a column cell or its successor. Before each
  read every component goes through the usual treatment of negative indices (a negative index counts from the end), and
  the read itself clamps each component into its axis. All of that is vacuous here: a complex number is below 2048, a
  cell lies in [0, 14], and a cell plus one lies in [1, 15], with no wrap-around in 32 bits. What remains is the grid at
  the four nodes around the sample, blended along the columns by the column fraction and then along the rows by the row
  fraction, which is the specification's `pix` at every index.

  The file first reads an indexed read and a three-way join of index columns at an index (the two kinds of stage that
  pick their operand element by a coordinate or by a value), then the words that stay in range, then the program's stages
  one family at a time, and ends with the equation of arrays.
-/

noncomputable section
namespace Cert.ReferenceIdeal.RefValue
open Idealize.ShloMosaic Idealize.ShloMosaic.ValueIdx Cert.Bilinear Cert.ReferenceIdeal Cert.ReferenceIdeal.Read

/-- The dimension numbers of the program's indexed read, under a short name. -/
private abbrev gd := gather_S2048x16x16x64_S2048x256x3_S2048x256x64_2_012_n_n_012_2_11164

/-- On an operand axis `a` that the index triple addresses (and that is therefore collapsed), the operand coordinate
    is the triple's component for `a`, found at `(c, p, k)` of the index array, read signed and clamped to the axis. -/
private theorem opIdx_mapped (idx : IVec S2048x256x3 32) (c : Fin 2048) (p : Fin 256) (f : Fin 64)
    (a : Fin 4) (k : Fin 3) (ha : a ∈ gd.startIndexMap) (hc : a ∈ gd.collapsedSliceDims)
    (hk : gd.siIdx (ix3 c p f) ⟨gd.startIndexMap.idxOf a, List.idxOf_lt_length_iff.2 ha⟩ = ix3 c p k) :
    (gd.operandIdx (ix3 c p f) idx a).val
      = min (idx (ix3 c p k)).toInt.toNat (S2048x16x16x64.size a - gd.sliceSizes a) := by
  show gd.start (ix3 c p f) idx a + gd.batchCoord (ix3 c p f) a + gd.offCoord (ix3 c p f) a = _
  rw [GatherDims.batchCoord_eq_zero _ _ _ List.not_mem_nil,
    GatherDims.offCoord_eq_zero _ _ _ (fun h => ((GatherDims.mem_sKept _ _).mp h).1 hc)]
  simp only [Nat.add_zero]
  unfold GatherDims.start
  rw [dif_pos ha, hk]

/-- The three-coordinate indexed read of the grid array at `(c, p, f)`: the array at the complex, row and column that
    the index triple at `(c, p, ·)` names, each read signed and clamped into its axis, and feature `f`. -/
theorem gather_apply (x : S2048x16x16x64.Idx → EReal) (idx : IVec S2048x256x3 32) (c : Fin 2048) (p : Fin 256) (f : Fin 64) :
    Host.gather gather_S2048x16x16x64_S2048x256x3_S2048x256x64_2_012_n_n_012_2_11164 x idx (ix3 c p f)
      = x (ix4 ⟨min (idx (ix3 c p 0)).toInt.toNat 2047, by omega⟩ (node (idx (ix3 c p 1))) (node (idx (ix3 c p 2))) f) := by
  unfold Host.gather
  congr 1
  funext a
  refine Fin.ext ?_
  match a with
  | ⟨0, _⟩ =>
    refine (opIdx_mapped idx c p f 0 0 (by decide) (by decide) ?_).trans rfl
    funext b; refine Fin.ext ?_
    match b with
    | ⟨0, _⟩ => rfl
    | ⟨1, _⟩ => rfl
    | ⟨2, _⟩ => rfl
  | ⟨1, _⟩ =>
    refine (opIdx_mapped idx c p f 1 1 (by decide) (by decide) ?_).trans rfl
    funext b; refine Fin.ext ?_
    match b with
    | ⟨0, _⟩ => rfl
    | ⟨1, _⟩ => rfl
    | ⟨2, _⟩ => rfl
  | ⟨2, _⟩ =>
    refine (opIdx_mapped idx c p f 2 2 (by decide) (by decide) ?_).trans rfl
    funext b; refine Fin.ext ?_
    match b with
    | ⟨0, _⟩ => rfl
    | ⟨1, _⟩ => rfl
    | ⟨2, _⟩ => rfl
  | ⟨3, _⟩ =>
    show gd.start (ix3 c p f) idx 3 + gd.batchCoord (ix3 c p f) 3 + gd.offCoord (ix3 c p f) 3 = f.val
    rw [GatherDims.batchCoord_eq_zero _ _ _ List.not_mem_nil]
    unfold GatherDims.start
    rw [dif_neg (by decide)]
    unfold GatherDims.offCoord
    rw [dif_pos (by decide), Nat.zero_add]
    rfl

/-- One of three index columns joined along the last axis, read at `(c, p, k)`: the `k`-th column at `(c, p, 0)`. Each
    column has extent one along that axis, so the columns before the `k`-th span `k` places. -/
private theorem concat3_piece (a0 a1 a2 : IVec S2048x256x1 32) (c : Fin 2048) (p : Fin 256) (k : Fin 3)
    (x₁ : IVec S2048x256x1 32)
    (hxk : [(⟨S2048x256x1, a0⟩ : (s : Shape) × (s.Idx → BitVec 32)), ⟨S2048x256x1, a1⟩, ⟨S2048x256x1, a2⟩][k.val]'k.isLt
      = ⟨S2048x256x1, x₁⟩)
    (hpre : ((([(⟨S2048x256x1, a0⟩ : (s : Shape) × (s.Idx → BitVec 32)), ⟨S2048x256x1, a1⟩, ⟨S2048x256x1, a2⟩].take k.val).map
      (·.1)).map fun s => if h : s.rank = S2048x256x3.rank then s.size ((2 : Fin S2048x256x3.rank).cast h.symm) else 0).sum
        = k.val) :
    concatenate S2048x256x3 2 [⟨S2048x256x1, a0⟩, ⟨S2048x256x1, a1⟩, ⟨S2048x256x1, a2⟩]
        Facts₀.concatenates_S2048x256x1_S2048x256x1_S2048x256x1_S2048x256x3_d2 (ix3 c p k) = x₁ (ix3 c p 0) := by
  refine concatenate_apply_piece (t := S2048x256x3) 2
    [(⟨S2048x256x1, a0⟩ : (s : Shape) × (s.Idx → BitVec 32)), ⟨S2048x256x1, a1⟩, ⟨S2048x256x1, a2⟩]
    Facts₀.concatenates_S2048x256x1_S2048x256x1_S2048x256x1_S2048x256x3_d2 (ix3 c p k) k.val k.isLt S2048x256x1 x₁ hxk rfl
    k.val hpre (ix3 c p 0) ?_ ?_
  · intro b hb
    match b with
    | ⟨0, _⟩ => rfl
    | ⟨1, _⟩ => rfl
    | ⟨2, _⟩ => exact absurd rfl hb
  · rfl

/-- Three index columns joined along the last axis, read at `(c, p, k)`: column `k` at `(c, p, 0)`. -/
theorem concat3_apply (a0 a1 a2 : IVec S2048x256x1 32) (c : Fin 2048) (p : Fin 256) :
    concatenate S2048x256x3 2 [⟨S2048x256x1, a0⟩, ⟨S2048x256x1, a1⟩, ⟨S2048x256x1, a2⟩]
        Facts₀.concatenates_S2048x256x1_S2048x256x1_S2048x256x1_S2048x256x3_d2 (ix3 c p 0) = a0 (ix3 c p 0)
    ∧ concatenate S2048x256x3 2 [⟨S2048x256x1, a0⟩, ⟨S2048x256x1, a1⟩, ⟨S2048x256x1, a2⟩]
        Facts₀.concatenates_S2048x256x1_S2048x256x1_S2048x256x1_S2048x256x3_d2 (ix3 c p 1) = a1 (ix3 c p 0)
    ∧ concatenate S2048x256x3 2 [⟨S2048x256x1, a0⟩, ⟨S2048x256x1, a1⟩, ⟨S2048x256x1, a2⟩]
        Facts₀.concatenates_S2048x256x1_S2048x256x1_S2048x256x1_S2048x256x3_d2 (ix3 c p 2) = a2 (ix3 c p 0) :=
  ⟨concat3_piece a0 a1 a2 c p 0 a0 rfl rfl, concat3_piece a0 a1 a2 c p 1 a1 rfl rfl,
    concat3_piece a0 a1 a2 c p 2 a2 rfl rfl⟩

/-! ### Words: indices that are in range -/

/-- The wrap of negative indices (`w < 0 ? w + k : w`) leaves a word alone that is non-negative as a signed integer. -/
theorem wrap_nonneg (w k : BitVec 32) (h : 0 ≤ w.toInt) :
    Scalar.select (IntOp.cmpi .slt w 0#32) (IntOp.addi w k) w = w := by
  have h0 : (0#32 : BitVec 32).toInt = 0 := by decide
  have hs : w.slt 0#32 = false := by
    simp only [BitVec.slt, h0, decide_eq_false_iff_not, not_lt]; exact h
  have hc : IntOp.cmpi .slt w 0#32 = 0#1 := by
    show BitVec.ofBool (w.slt 0#32) = 0#1
    rw [hs]; rfl
  rw [hc]; exact select_zero _ _

/-- The right (or lower) neighbour of a cell: one more, without overflow. -/
theorem toInt_succ_of_le (w : BitVec 32) (h0 : 0 ≤ w.toInt) (h1 : w.toInt ≤ 14) : (w + 1#32).toInt = w.toInt + 1 := by
  have h1' : (1#32 : BitVec 32).toInt = 1 := by decide
  rw [BitVec.toInt_add, h1']
  exact Int.bmod_eq_of_le (by omega) (by omega)

/-- The word of a natural number below `2048`, read as a signed integer, is that number. -/
theorem toInt_ofNat_lt (n : Nat) (h : n < 2048) : (BitVec.ofNat 32 n).toInt = n := by
  rw [BitVec.toInt_ofNat']
  exact Int.bmod_eq_of_le (by omega) (by omega)

/-! ### The cells and fractions of the two sample positions -/

/-- The column cell: the scaled first position, floored, converted and clamped into `[0, 14]`. -/
theorem v6_at (x1 : (⟨S2048x256, .f32⟩ : BufTy).Contents (Elt Ideal)) (i : S2048x256.Idx) :
    val_main_v6 (F := Ideal) x1 i = cell (x1 i) := by
  rw [val_main_v6_apply, val_main_call0_v4_apply, val_main_call0_v3_apply, val_main_c_1_apply, val_main_call0_v2_apply,
    val_main_call0_v1_apply, val_main_call0_v0_apply, val_main_c_apply, val_main_v5_apply, val_main_v4_apply,
    val_main_v1_apply, val_main_v0_apply, val_main_cst_apply]
  rfl

/-- The row cell, from the second position in the same way. -/
theorem v9_at (x2 : (⟨S2048x256, .f32⟩ : BufTy).Contents (Elt Ideal)) (i : S2048x256.Idx) :
    val_main_v9 (F := Ideal) x2 i = cell (x2 i) := by
  rw [val_main_v9_apply, val_main_call1_v4_apply, val_main_call1_v3_apply, val_main_c_3_apply, val_main_call1_v2_apply,
    val_main_call1_v1_apply, val_main_call1_v0_apply, val_main_c_2_apply, val_main_v8_apply, val_main_v7_apply,
    val_main_v3_apply, val_main_v2_apply, val_main_cst_0_apply]
  rfl

/-- The column fraction: the scaled first position less its cell. -/
theorem v11_at (x1 : (⟨S2048x256, .f32⟩ : BufTy).Contents (Elt Ideal)) (i : S2048x256.Idx) :
    val_main_v11 (F := Ideal) x1 i = frac (x1 i) := by
  rw [val_main_v11_apply, val_main_v1_apply, val_main_v0_apply, val_main_cst_apply, val_main_v10_apply, v6_at]
  rfl

/-- The row fraction. -/
theorem v14_at (x2 : (⟨S2048x256, .f32⟩ : BufTy).Contents (Elt Ideal)) (i : S2048x256.Idx) :
    val_main_v14 (F := Ideal) x2 i = frac (x2 i) := by
  rw [val_main_v14_apply, val_main_v3_apply, val_main_v2_apply, val_main_cst_0_apply, val_main_v13_apply, v9_at]
  rfl

/-! ### The index triples of the four corners

Each corner is read at a triple (complex, row, column). Every component passes through the wrap of negative indices,
which does nothing here: the complex number is below `2048`, a cell lies in `[0, 14]` and a cell plus one in
`[1, 15]`. -/

/-- The complex numbering along the first axis, as a column. -/
theorem v17_at (c : Fin 2048) : val_main_v17 (F := Ideal) (ix2 c 0) = BitVec.ofNat 32 c.val := by
  rw [val_main_v17_apply, val_main_v16_apply]

/-- The complex index column, normalised: the complex's own number (non-negative, so the wrap does nothing). -/
theorem v22_at (c : Fin 2048) : val_main_v22 (F := Ideal) (ix2 c 0) = BitVec.ofNat 32 c.val := by
  rw [val_main_v22_apply, val_main_v19_apply, val_main_v21_apply, val_main_v18_apply, val_main_c_4_apply, v17_at]
  exact wrap_nonneg _ _ (by rw [toInt_ofNat_lt _ c.isLt]; omega)

/-- The same column, repeated along the samples. -/
theorem v33_at (c : Fin 2048) (p : Fin 256) : val_main_v33 (F := Ideal) (ix2 c p) = BitVec.ofNat 32 c.val := by
  have e : idx_main_v33 (ix2 c p) = ix2 c 0 := by
    funext a; match a with | ⟨0, _⟩ => rfl | ⟨1, _⟩ => rfl
  rw [val_main_v33_apply, e, v22_at]

/-- The same again, as the first column of an index triple. -/
theorem v34_at (c : Fin 2048) (p : Fin 256) : val_main_v34 (F := Ideal) (ix3 c p 0) = BitVec.ofNat 32 c.val := by
  have e : idx_main_v34 (ix3 c p 0) = ix2 c p := by
    funext a; match a with | ⟨0, _⟩ => rfl | ⟨1, _⟩ => rfl
  rw [val_main_v34_apply, e, v33_at]

/-- The complex index column, normalised: the complex's own number (non-negative, so the wrap does nothing). -/
theorem v45_at (c : Fin 2048) : val_main_v45 (F := Ideal) (ix2 c 0) = BitVec.ofNat 32 c.val := by
  rw [val_main_v45_apply, val_main_v42_apply, val_main_v44_apply, val_main_v41_apply, val_main_c_11_apply, v17_at]
  exact wrap_nonneg _ _ (by rw [toInt_ofNat_lt _ c.isLt]; omega)

/-- The same column, repeated along the samples. -/
theorem v56_at (c : Fin 2048) (p : Fin 256) : val_main_v56 (F := Ideal) (ix2 c p) = BitVec.ofNat 32 c.val := by
  have e : idx_main_v56 (ix2 c p) = ix2 c 0 := by
    funext a; match a with | ⟨0, _⟩ => rfl | ⟨1, _⟩ => rfl
  rw [val_main_v56_apply, e, v45_at]

/-- The same again, as the first column of an index triple. -/
theorem v57_at (c : Fin 2048) (p : Fin 256) : val_main_v57 (F := Ideal) (ix3 c p 0) = BitVec.ofNat 32 c.val := by
  have e : idx_main_v57 (ix3 c p 0) = ix2 c p := by
    funext a; match a with | ⟨0, _⟩ => rfl | ⟨1, _⟩ => rfl
  rw [val_main_v57_apply, e, v56_at]

/-- The complex index column, normalised: the complex's own number (non-negative, so the wrap does nothing). -/
theorem v68_at (c : Fin 2048) : val_main_v68 (F := Ideal) (ix2 c 0) = BitVec.ofNat 32 c.val := by
  rw [val_main_v68_apply, val_main_v65_apply, val_main_v67_apply, val_main_v64_apply, val_main_c_18_apply, v17_at]
  exact wrap_nonneg _ _ (by rw [toInt_ofNat_lt _ c.isLt]; omega)

/-- The same column, repeated along the samples. -/
theorem v79_at (c : Fin 2048) (p : Fin 256) : val_main_v79 (F := Ideal) (ix2 c p) = BitVec.ofNat 32 c.val := by
  have e : idx_main_v79 (ix2 c p) = ix2 c 0 := by
    funext a; match a with | ⟨0, _⟩ => rfl | ⟨1, _⟩ => rfl
  rw [val_main_v79_apply, e, v68_at]

/-- The same again, as the first column of an index triple. -/
theorem v80_at (c : Fin 2048) (p : Fin 256) : val_main_v80 (F := Ideal) (ix3 c p 0) = BitVec.ofNat 32 c.val := by
  have e : idx_main_v80 (ix3 c p 0) = ix2 c p := by
    funext a; match a with | ⟨0, _⟩ => rfl | ⟨1, _⟩ => rfl
  rw [val_main_v80_apply, e, v79_at]

/-- The complex index column, normalised: the complex's own number (non-negative, so the wrap does nothing). -/
theorem v93_at (c : Fin 2048) : val_main_v93 (F := Ideal) (ix2 c 0) = BitVec.ofNat 32 c.val := by
  rw [val_main_v93_apply, val_main_v90_apply, val_main_v92_apply, val_main_v89_apply, val_main_c_26_apply, v17_at]
  exact wrap_nonneg _ _ (by rw [toInt_ofNat_lt _ c.isLt]; omega)

/-- The same column, repeated along the samples. -/
theorem v104_at (c : Fin 2048) (p : Fin 256) : val_main_v104 (F := Ideal) (ix2 c p) = BitVec.ofNat 32 c.val := by
  have e : idx_main_v104 (ix2 c p) = ix2 c 0 := by
    funext a; match a with | ⟨0, _⟩ => rfl | ⟨1, _⟩ => rfl
  rw [val_main_v104_apply, e, v93_at]

/-- The same again, as the first column of an index triple. -/
theorem v105_at (c : Fin 2048) (p : Fin 256) : val_main_v105 (F := Ideal) (ix3 c p 0) = BitVec.ofNat 32 c.val := by
  have e : idx_main_v105 (ix3 c p 0) = ix2 c p := by
    funext a; match a with | ⟨0, _⟩ => rfl | ⟨1, _⟩ => rfl
  rw [val_main_v105_apply, e, v104_at]

/-- A cell after the wrap of negative indices: the cell itself, being non-negative. -/
theorem v27_at (x2 : (⟨S2048x256, .f32⟩ : BufTy).Contents (Elt Ideal)) (i : S2048x256.Idx) :
    val_main_v27 (F := Ideal) x2 i = cell (x2 i) := by
  rw [val_main_v27_apply, val_main_v24_apply, val_main_v26_apply, val_main_v23_apply, val_main_c_6_apply, v9_at]
  exact wrap_nonneg _ _ (cell_bounds (x2 i)).1

/-- That word as a column of an index triple. -/
theorem v35_at (x2 : (⟨S2048x256, .f32⟩ : BufTy).Contents (Elt Ideal)) (c : Fin 2048) (p : Fin 256) :
    val_main_v35 (F := Ideal) x2 (ix3 c p 0) = cell (x2 (ix2 c p)) := by
  have e : idx_main_v35 (ix3 c p 0) = ix2 c p := by
    funext a; match a with | ⟨0, _⟩ => rfl | ⟨1, _⟩ => rfl
  rw [val_main_v35_apply, e, v27_at]

/-- A cell after the wrap of negative indices: the cell itself, being non-negative. -/
theorem v32_at (x1 : (⟨S2048x256, .f32⟩ : BufTy).Contents (Elt Ideal)) (i : S2048x256.Idx) :
    val_main_v32 (F := Ideal) x1 i = cell (x1 i) := by
  rw [val_main_v32_apply, val_main_v29_apply, val_main_v31_apply, val_main_v28_apply, val_main_c_8_apply, v6_at]
  exact wrap_nonneg _ _ (cell_bounds (x1 i)).1

/-- That word as a column of an index triple. -/
theorem v36_at (x1 : (⟨S2048x256, .f32⟩ : BufTy).Contents (Elt Ideal)) (c : Fin 2048) (p : Fin 256) :
    val_main_v36 (F := Ideal) x1 (ix3 c p 0) = cell (x1 (ix2 c p)) := by
  have e : idx_main_v36 (ix3 c p 0) = ix2 c p := by
    funext a; match a with | ⟨0, _⟩ => rfl | ⟨1, _⟩ => rfl
  rw [val_main_v36_apply, e, v32_at]

/-- A cell after the wrap of negative indices: the cell itself, being non-negative. -/
theorem v50_at (x2 : (⟨S2048x256, .f32⟩ : BufTy).Contents (Elt Ideal)) (i : S2048x256.Idx) :
    val_main_v50 (F := Ideal) x2 i = cell (x2 i) := by
  rw [val_main_v50_apply, val_main_v47_apply, val_main_v49_apply, val_main_v46_apply, val_main_c_13_apply, v9_at]
  exact wrap_nonneg _ _ (cell_bounds (x2 i)).1

/-- That word as a column of an index triple. -/
theorem v58_at (x2 : (⟨S2048x256, .f32⟩ : BufTy).Contents (Elt Ideal)) (c : Fin 2048) (p : Fin 256) :
    val_main_v58 (F := Ideal) x2 (ix3 c p 0) = cell (x2 (ix2 c p)) := by
  have e : idx_main_v58 (ix3 c p 0) = ix2 c p := by
    funext a; match a with | ⟨0, _⟩ => rfl | ⟨1, _⟩ => rfl
  rw [val_main_v58_apply, e, v50_at]

/-- A cell's neighbour: one more. -/
theorem v40_at (x1 : (⟨S2048x256, .f32⟩ : BufTy).Contents (Elt Ideal)) (i : S2048x256.Idx) :
    val_main_v40 (F := Ideal) x1 i = cell (x1 i) + 1#32 := by
  rw [val_main_v40_apply, val_main_v39_apply, val_main_c_10_apply, v6_at]
  rfl

/-- A cell's neighbour after the wrap of negative indices: unchanged, lying in `[1, 15]`. -/
theorem v55_at (x1 : (⟨S2048x256, .f32⟩ : BufTy).Contents (Elt Ideal)) (i : S2048x256.Idx) :
    val_main_v55 (F := Ideal) x1 i = cell (x1 i) + 1#32 := by
  rw [val_main_v55_apply, val_main_v52_apply, val_main_v54_apply, val_main_v51_apply, val_main_c_15_apply, v40_at]
  exact wrap_nonneg _ _ (by rw [toInt_succ_of_le _ (cell_bounds (x1 i)).1 (cell_bounds (x1 i)).2]; have := (cell_bounds (x1 i)).1; omega)

/-- That word as a column of an index triple. -/
theorem v59_at (x1 : (⟨S2048x256, .f32⟩ : BufTy).Contents (Elt Ideal)) (c : Fin 2048) (p : Fin 256) :
    val_main_v59 (F := Ideal) x1 (ix3 c p 0) = cell (x1 (ix2 c p)) + 1#32 := by
  have e : idx_main_v59 (ix3 c p 0) = ix2 c p := by
    funext a; match a with | ⟨0, _⟩ => rfl | ⟨1, _⟩ => rfl
  rw [val_main_v59_apply, e, v55_at]

/-- A cell's neighbour: one more. -/
theorem v63_at (x2 : (⟨S2048x256, .f32⟩ : BufTy).Contents (Elt Ideal)) (i : S2048x256.Idx) :
    val_main_v63 (F := Ideal) x2 i = cell (x2 i) + 1#32 := by
  rw [val_main_v63_apply, val_main_v62_apply, val_main_c_17_apply, v9_at]
  rfl

/-- A cell's neighbour after the wrap of negative indices: unchanged, lying in `[1, 15]`. -/
theorem v73_at (x2 : (⟨S2048x256, .f32⟩ : BufTy).Contents (Elt Ideal)) (i : S2048x256.Idx) :
    val_main_v73 (F := Ideal) x2 i = cell (x2 i) + 1#32 := by
  rw [val_main_v73_apply, val_main_v70_apply, val_main_v72_apply, val_main_v69_apply, val_main_c_20_apply, v63_at]
  exact wrap_nonneg _ _ (by rw [toInt_succ_of_le _ (cell_bounds (x2 i)).1 (cell_bounds (x2 i)).2]; have := (cell_bounds (x2 i)).1; omega)

/-- That word as a column of an index triple. -/
theorem v81_at (x2 : (⟨S2048x256, .f32⟩ : BufTy).Contents (Elt Ideal)) (c : Fin 2048) (p : Fin 256) :
    val_main_v81 (F := Ideal) x2 (ix3 c p 0) = cell (x2 (ix2 c p)) + 1#32 := by
  have e : idx_main_v81 (ix3 c p 0) = ix2 c p := by
    funext a; match a with | ⟨0, _⟩ => rfl | ⟨1, _⟩ => rfl
  rw [val_main_v81_apply, e, v73_at]

/-- A cell after the wrap of negative indices: the cell itself, being non-negative. -/
theorem v78_at (x1 : (⟨S2048x256, .f32⟩ : BufTy).Contents (Elt Ideal)) (i : S2048x256.Idx) :
    val_main_v78 (F := Ideal) x1 i = cell (x1 i) := by
  rw [val_main_v78_apply, val_main_v75_apply, val_main_v77_apply, val_main_v74_apply, val_main_c_22_apply, v6_at]
  exact wrap_nonneg _ _ (cell_bounds (x1 i)).1

/-- That word as a column of an index triple. -/
theorem v82_at (x1 : (⟨S2048x256, .f32⟩ : BufTy).Contents (Elt Ideal)) (c : Fin 2048) (p : Fin 256) :
    val_main_v82 (F := Ideal) x1 (ix3 c p 0) = cell (x1 (ix2 c p)) := by
  have e : idx_main_v82 (ix3 c p 0) = ix2 c p := by
    funext a; match a with | ⟨0, _⟩ => rfl | ⟨1, _⟩ => rfl
  rw [val_main_v82_apply, e, v78_at]

/-- A cell's neighbour: one more. -/
theorem v86_at (x2 : (⟨S2048x256, .f32⟩ : BufTy).Contents (Elt Ideal)) (i : S2048x256.Idx) :
    val_main_v86 (F := Ideal) x2 i = cell (x2 i) + 1#32 := by
  rw [val_main_v86_apply, val_main_v85_apply, val_main_c_24_apply, v9_at]
  rfl

/-- A cell's neighbour after the wrap of negative indices: unchanged, lying in `[1, 15]`. -/
theorem v98_at (x2 : (⟨S2048x256, .f32⟩ : BufTy).Contents (Elt Ideal)) (i : S2048x256.Idx) :
    val_main_v98 (F := Ideal) x2 i = cell (x2 i) + 1#32 := by
  rw [val_main_v98_apply, val_main_v95_apply, val_main_v97_apply, val_main_v94_apply, val_main_c_28_apply, v86_at]
  exact wrap_nonneg _ _ (by rw [toInt_succ_of_le _ (cell_bounds (x2 i)).1 (cell_bounds (x2 i)).2]; have := (cell_bounds (x2 i)).1; omega)

/-- That word as a column of an index triple. -/
theorem v106_at (x2 : (⟨S2048x256, .f32⟩ : BufTy).Contents (Elt Ideal)) (c : Fin 2048) (p : Fin 256) :
    val_main_v106 (F := Ideal) x2 (ix3 c p 0) = cell (x2 (ix2 c p)) + 1#32 := by
  have e : idx_main_v106 (ix3 c p 0) = ix2 c p := by
    funext a; match a with | ⟨0, _⟩ => rfl | ⟨1, _⟩ => rfl
  rw [val_main_v106_apply, e, v98_at]

/-- A cell's neighbour: one more. -/
theorem v88_at (x1 : (⟨S2048x256, .f32⟩ : BufTy).Contents (Elt Ideal)) (i : S2048x256.Idx) :
    val_main_v88 (F := Ideal) x1 i = cell (x1 i) + 1#32 := by
  rw [val_main_v88_apply, val_main_v87_apply, val_main_c_25_apply, v6_at]
  rfl

/-- A cell's neighbour after the wrap of negative indices: unchanged, lying in `[1, 15]`. -/
theorem v103_at (x1 : (⟨S2048x256, .f32⟩ : BufTy).Contents (Elt Ideal)) (i : S2048x256.Idx) :
    val_main_v103 (F := Ideal) x1 i = cell (x1 i) + 1#32 := by
  rw [val_main_v103_apply, val_main_v100_apply, val_main_v102_apply, val_main_v99_apply, val_main_c_30_apply, v88_at]
  exact wrap_nonneg _ _ (by rw [toInt_succ_of_le _ (cell_bounds (x1 i)).1 (cell_bounds (x1 i)).2]; have := (cell_bounds (x1 i)).1; omega)

/-- That word as a column of an index triple. -/
theorem v107_at (x1 : (⟨S2048x256, .f32⟩ : BufTy).Contents (Elt Ideal)) (c : Fin 2048) (p : Fin 256) :
    val_main_v107 (F := Ideal) x1 (ix3 c p 0) = cell (x1 (ix2 c p)) + 1#32 := by
  have e : idx_main_v107 (ix3 c p 0) = ix2 c p := by
    funext a; match a with | ⟨0, _⟩ => rfl | ⟨1, _⟩ => rfl
  rw [val_main_v107_apply, e, v103_at]

/-! ### The four corners -/

/-- An indexed read whose triple at `(c, p, ·)` is the complex's own number and two words `w₁`, `w₂`: the grid array at
    complex `c`, row `node w₁`, column `node w₂` (the clamp of the first component does nothing, `c` being in range). -/
theorem gather_at (x : S2048x16x16x64.Idx → EReal) (idx : IVec S2048x256x3 32) (c : Fin 2048) (p : Fin 256) (f : Fin 64)
    (w₁ w₂ : BitVec 32) (h0 : idx (ix3 c p 0) = BitVec.ofNat 32 c.val) (h1 : idx (ix3 c p 1) = w₁) (h2 : idx (ix3 c p 2) = w₂) :
    Host.gather gather_S2048x16x16x64_S2048x256x3_S2048x256x64_2_012_n_n_012_2_11164 x idx (ix3 c p f)
      = x (ix4 c (node w₁) (node w₂) f) := by
  have hc : (⟨min (idx (ix3 c p 0)).toInt.toNat 2047, by omega⟩ : Fin 2048) = c := by
    apply Fin.ext
    show min (idx (ix3 c p 0)).toInt.toNat 2047 = c.val
    rw [h0, toInt_ofNat_lt _ c.isLt, Int.toNat_natCast]
    have := c.isLt
    omega
  rw [gather_apply, h1, h2, hc]

/-- The upper left corner: row cell, column cell. -/
theorem v38_at (x0 : (⟨S2048x16x16x64, .f32⟩ : BufTy).Contents (Elt Ideal)) (x1 x2 : (⟨S2048x256, .f32⟩ : BufTy).Contents (Elt Ideal))
    (c : Fin 2048) (p : Fin 256) (f : Fin 64) :
    val_main_v38 (F := Ideal) x0 x1 x2 (ix3 c p f)
      = x0 (ix4 c (node (cell (x2 (ix2 c p)))) (node (cell (x1 (ix2 c p)))) f) := by
  unfold val_main_v38 val_main_v37
  obtain ⟨h0, h1, h2⟩ := concat3_apply (val_main_v34 (F := Ideal)) (val_main_v35 (F := Ideal) x2) (val_main_v36 (F := Ideal) x1) c p
  exact gather_at x0 _ c p f _ _ (h0.trans (v34_at c p)) (h1.trans (v35_at x2 c p)) (h2.trans (v36_at x1 c p))

/-- The upper right corner: row cell, column cell plus one. -/
theorem v61_at (x0 : (⟨S2048x16x16x64, .f32⟩ : BufTy).Contents (Elt Ideal)) (x1 x2 : (⟨S2048x256, .f32⟩ : BufTy).Contents (Elt Ideal))
    (c : Fin 2048) (p : Fin 256) (f : Fin 64) :
    val_main_v61 (F := Ideal) x0 x1 x2 (ix3 c p f)
      = x0 (ix4 c (node (cell (x2 (ix2 c p)))) (node (cell (x1 (ix2 c p)) + 1#32)) f) := by
  unfold val_main_v61 val_main_v60
  obtain ⟨h0, h1, h2⟩ := concat3_apply (val_main_v57 (F := Ideal)) (val_main_v58 (F := Ideal) x2) (val_main_v59 (F := Ideal) x1) c p
  exact gather_at x0 _ c p f _ _ (h0.trans (v57_at c p)) (h1.trans (v58_at x2 c p)) (h2.trans (v59_at x1 c p))

/-- The lower left corner: row cell plus one, column cell. -/
theorem v84_at (x0 : (⟨S2048x16x16x64, .f32⟩ : BufTy).Contents (Elt Ideal)) (x1 x2 : (⟨S2048x256, .f32⟩ : BufTy).Contents (Elt Ideal))
    (c : Fin 2048) (p : Fin 256) (f : Fin 64) :
    val_main_v84 (F := Ideal) x0 x1 x2 (ix3 c p f)
      = x0 (ix4 c (node (cell (x2 (ix2 c p)) + 1#32)) (node (cell (x1 (ix2 c p)))) f) := by
  unfold val_main_v84 val_main_v83
  obtain ⟨h0, h1, h2⟩ := concat3_apply (val_main_v80 (F := Ideal)) (val_main_v81 (F := Ideal) x2) (val_main_v82 (F := Ideal) x1) c p
  exact gather_at x0 _ c p f _ _ (h0.trans (v80_at c p)) (h1.trans (v81_at x2 c p)) (h2.trans (v82_at x1 c p))

/-- The lower right corner: both plus one. -/
theorem v109_at (x0 : (⟨S2048x16x16x64, .f32⟩ : BufTy).Contents (Elt Ideal)) (x1 x2 : (⟨S2048x256, .f32⟩ : BufTy).Contents (Elt Ideal))
    (c : Fin 2048) (p : Fin 256) (f : Fin 64) :
    val_main_v109 (F := Ideal) x0 x1 x2 (ix3 c p f)
      = x0 (ix4 c (node (cell (x2 (ix2 c p)) + 1#32)) (node (cell (x1 (ix2 c p)) + 1#32)) f) := by
  unfold val_main_v109 val_main_v108
  obtain ⟨h0, h1, h2⟩ := concat3_apply (val_main_v105 (F := Ideal)) (val_main_v106 (F := Ideal) x2) (val_main_v107 (F := Ideal) x1) c p
  exact gather_at x0 _ c p f _ _ (h0.trans (v105_at c p)) (h1.trans (v106_at x2 c p)) (h2.trans (v107_at x1 c p))

/-! ### The weights -/

/-- The column fraction as a column of the sample array. -/
theorem v12_at (x1 : (⟨S2048x256, .f32⟩ : BufTy).Contents (Elt Ideal)) (c : Fin 2048) (p : Fin 256) :
    val_main_v12 (F := Ideal) x1 (ix3 c p 0) = frac (x1 (ix2 c p)) := by
  have e : idx_main_v12 (ix3 c p 0) = ix2 c p := by
    funext a; match a with | ⟨0, _⟩ => rfl | ⟨1, _⟩ => rfl
  rw [val_main_v12_apply, e, v11_at]

/-- The row fraction as a column of the sample array. -/
theorem v15_at (x2 : (⟨S2048x256, .f32⟩ : BufTy).Contents (Elt Ideal)) (c : Fin 2048) (p : Fin 256) :
    val_main_v15 (F := Ideal) x2 (ix3 c p 0) = frac (x2 (ix2 c p)) := by
  have e : idx_main_v15 (ix3 c p 0) = ix2 c p := by
    funext a; match a with | ⟨0, _⟩ => rfl | ⟨1, _⟩ => rfl
  rw [val_main_v15_apply, e, v14_at]

/-- The complementary weight: one less the fraction. -/
theorem v111_at (x1 : (⟨S2048x256, .f32⟩ : BufTy).Contents (Elt Ideal)) (c : Fin 2048) (p : Fin 256) :
    val_main_v111 (F := Ideal) x1 (ix3 c p 0) = one - frac (x1 (ix2 c p)) := by
  rw [val_main_v111_apply, val_main_v110_apply, val_main_cst_32_apply, v12_at]
  rfl

/-- The complementary weight: one less the fraction. -/
theorem v118_at (x1 : (⟨S2048x256, .f32⟩ : BufTy).Contents (Elt Ideal)) (c : Fin 2048) (p : Fin 256) :
    val_main_v118 (F := Ideal) x1 (ix3 c p 0) = one - frac (x1 (ix2 c p)) := by
  rw [val_main_v118_apply, val_main_v117_apply, val_main_cst_33_apply, v12_at]
  rfl

/-- The complementary weight: one less the fraction. -/
theorem v125_at (x2 : (⟨S2048x256, .f32⟩ : BufTy).Contents (Elt Ideal)) (c : Fin 2048) (p : Fin 256) :
    val_main_v125 (F := Ideal) x2 (ix3 c p 0) = one - frac (x2 (ix2 c p)) := by
  rw [val_main_v125_apply, val_main_v124_apply, val_main_cst_34_apply, v15_at]
  rfl

/-- The left weight, spread over the features. -/
theorem v112_at (x1 : (⟨S2048x256, .f32⟩ : BufTy).Contents (Elt Ideal)) (c : Fin 2048) (p : Fin 256) (f : Fin 64) :
    val_main_v112 (F := Ideal) x1 (ix3 c p f) = one - frac (x1 (ix2 c p)) := by
  have e : idx_main_v112 (ix3 c p f) = ix3 c p 0 := by
    funext a; match a with | ⟨0, _⟩ => rfl | ⟨1, _⟩ => rfl | ⟨2, _⟩ => rfl
  rw [val_main_v112_apply, e, v111_at]

/-- The right weight, spread over the features. -/
theorem v114_at (x1 : (⟨S2048x256, .f32⟩ : BufTy).Contents (Elt Ideal)) (c : Fin 2048) (p : Fin 256) (f : Fin 64) :
    val_main_v114 (F := Ideal) x1 (ix3 c p f) = frac (x1 (ix2 c p)) := by
  have e : idx_main_v114 (ix3 c p f) = ix3 c p 0 := by
    funext a; match a with | ⟨0, _⟩ => rfl | ⟨1, _⟩ => rfl | ⟨2, _⟩ => rfl
  rw [val_main_v114_apply, e, v12_at]

/-- The left weight again (the lower row's copy). -/
theorem v119_at (x1 : (⟨S2048x256, .f32⟩ : BufTy).Contents (Elt Ideal)) (c : Fin 2048) (p : Fin 256) (f : Fin 64) :
    val_main_v119 (F := Ideal) x1 (ix3 c p f) = one - frac (x1 (ix2 c p)) := by
  have e : idx_main_v119 (ix3 c p f) = ix3 c p 0 := by
    funext a; match a with | ⟨0, _⟩ => rfl | ⟨1, _⟩ => rfl | ⟨2, _⟩ => rfl
  rw [val_main_v119_apply, e, v118_at]

/-- The right weight again. -/
theorem v121_at (x1 : (⟨S2048x256, .f32⟩ : BufTy).Contents (Elt Ideal)) (c : Fin 2048) (p : Fin 256) (f : Fin 64) :
    val_main_v121 (F := Ideal) x1 (ix3 c p f) = frac (x1 (ix2 c p)) := by
  have e : idx_main_v121 (ix3 c p f) = ix3 c p 0 := by
    funext a; match a with | ⟨0, _⟩ => rfl | ⟨1, _⟩ => rfl | ⟨2, _⟩ => rfl
  rw [val_main_v121_apply, e, v12_at]

/-- The upper weight. -/
theorem v126_at (x2 : (⟨S2048x256, .f32⟩ : BufTy).Contents (Elt Ideal)) (c : Fin 2048) (p : Fin 256) (f : Fin 64) :
    val_main_v126 (F := Ideal) x2 (ix3 c p f) = one - frac (x2 (ix2 c p)) := by
  have e : idx_main_v126 (ix3 c p f) = ix3 c p 0 := by
    funext a; match a with | ⟨0, _⟩ => rfl | ⟨1, _⟩ => rfl | ⟨2, _⟩ => rfl
  rw [val_main_v126_apply, e, v125_at]

/-- The lower weight. -/
theorem v128_at (x2 : (⟨S2048x256, .f32⟩ : BufTy).Contents (Elt Ideal)) (c : Fin 2048) (p : Fin 256) (f : Fin 64) :
    val_main_v128 (F := Ideal) x2 (ix3 c p f) = frac (x2 (ix2 c p)) := by
  have e : idx_main_v128 (ix3 c p f) = ix3 c p 0 := by
    funext a; match a with | ⟨0, _⟩ => rfl | ⟨1, _⟩ => rfl | ⟨2, _⟩ => rfl
  rw [val_main_v128_apply, e, v15_at]

/-! ### The blend -/

/-- The reference's last stage IS the bilinear sample array: its four indexed reads are in range, so its index
    normalisation (a negative index wraps) and the read's clamp both do nothing, and what is left is `pix`. -/
theorem ref_eq (x0 : (⟨S2048x16x16x64, .f32⟩ : BufTy).Contents (Elt Ideal)) (x1 x2 : (⟨S2048x256, .f32⟩ : BufTy).Contents (Elt Ideal)) :
    val_main_v130 (F := Ideal) x0 x1 x2 = G x0 x1 x2 := by
  funext j
  obtain ⟨c, p, f, rfl⟩ : ∃ c p f, j = ix3 c p f := ⟨j 0, j 1, j 2, eq_ix3 j⟩
  rw [G_apply]
  unfold gAt pix blend
  rw [val_main_v130_apply, val_main_v127_apply, val_main_v129_apply, val_main_v116_apply, val_main_v123_apply,
    val_main_v113_apply, val_main_v115_apply, val_main_v120_apply, val_main_v122_apply,
    v38_at, v61_at, v84_at, v109_at, v112_at, v114_at, v119_at, v121_at, v126_at, v128_at]
  rfl

end Cert.ReferenceIdeal.RefValue
end
-- ==== Proof.Law.lean ====
/-
  The algebraic law between the two ways of computing a bilinear sample.

  One way gathers the four nodes around the sample and blends them (`pix`). The other multiplies the WHOLE grid, all
  256 nodes, by the outer product of two weight vectors that vanish away from the cell and its neighbour (`hat`) and
  sums. The proof reads the two-hot weight as a case split on the node (`hat_eq`: a node index equals the cell's word
  exactly when it is the node the word names, because the cell is in `[0, 14]` and its neighbour does not wrap), drops
  the vanishing terms of each sum, and is left with distributing the two row weights over the column blend: true for
  real numbers, which is why every number involved is asked to be finite.
-/
import proofs.«146209_j30502857736195_1_alg».proof.Proof.Spec

noncomputable section

open scoped BigOperators

namespace Cert.Bilinear

open Idealize.ShloMosaic

/-! ## The literal words -/

theorem one_eq : one = ((1 : ℝ) : EReal) := by
  unfold one; simp [Ideal.ofBits, Ideal.ieee, -EReal.coe_mul]; norm_num
theorem scale_eq : scale = ((15 : ℝ) : EReal) := by
  unfold scale; simp [Ideal.ofBits, Ideal.ieee, -EReal.coe_mul]; norm_num
theorem zero_eq : zero = 0 := by
  unfold zero; simp [Ideal.ofBits, Ideal.ieee]

/-! ## The cell and its neighbour as nodes -/

/-- The cell as a natural number: at most 14, and the word's signed reading. -/
theorem cell_nat (a : EReal) : (cell a).toNat ≤ 14 ∧ (cell a).toInt = ((cell a).toNat : Int) := by
  have h := cell_bounds a
  have e := BitVec.toInt_eq_toNat_cond (cell a)
  have := (cell a).isLt
  constructor
  · split_ifs at e <;> omega
  · split_ifs at e <;> omega

/-- The neighbour word `cell + 1` does not wrap: it is the next natural number. -/
theorem cell_succ_nat (a : EReal) : (cell a + 1#32).toNat = (cell a).toNat + 1
    ∧ (cell a + 1#32).toInt = ((cell a).toNat : Int) + 1 := by
  have h := (cell_nat a).1
  have e1 : (cell a + 1#32).toNat = (cell a).toNat + 1 := by
    rw [BitVec.toNat_add]; simp; omega
  have e := BitVec.toInt_eq_toNat_cond (cell a + 1#32)
  refine ⟨e1, ?_⟩
  rw [e1] at e
  split_ifs at e <;> omega

theorem node_cell (a : EReal) : (node (cell a)).val = (cell a).toNat := by
  have h := cell_nat a
  show min (cell a).toInt.toNat 15 = _
  rw [h.2]; simp; omega

theorem node_cell_succ (a : EReal) : (node (cell a + 1#32)).val = (cell a).toNat + 1 := by
  have h := cell_nat a
  have h' := cell_succ_nat a
  show min (cell a + 1#32).toInt.toNat 15 = _
  rw [h'.2]
  have : ((cell a).toNat : Int) + 1 = (((cell a).toNat + 1 : Nat) : Int) := by push_cast; rfl
  rw [this, Int.toNat_natCast]; omega

/-- The cell and its neighbour are different nodes. -/
theorem node_ne (a : EReal) : node (cell a) ≠ node (cell a + 1#32) := by
  intro h
  have := congrArg Fin.val h
  rw [node_cell, node_cell_succ] at this
  omega

/-- A node index equals a small word exactly when it is the node the word names. -/
theorem ofNat_eq_iff (h : Fin 16) (w : BitVec 32) (hw : w.toNat ≤ 15) (hn : (node w).val = w.toNat) :
    BitVec.ofNat 32 h.val = w ↔ h = node w := by
  constructor
  · intro e
    apply Fin.ext
    rw [hn, ← e, BitVec.toNat_ofNat]
    have := h.isLt; omega
  · intro e
    apply BitVec.eq_of_toNat_eq
    rw [BitVec.toNat_ofNat, e, hn]
    omega

theorem ofBool_one (b : Bool) : BitVec.ofBool b = (1 : BitVec 1) ↔ b = true := by cases b <;> decide

/-- The two-hot weight as a case split on the node. -/
theorem hat_eq (a : EReal) (h : Fin 16) :
    hat a h = if h = node (cell a) then one - frac a else if h = node (cell a + 1#32) then frac a else 0 := by
  have c0 := cell_nat a
  have c1 := cell_succ_nat a
  have i0 := ofNat_eq_iff h (cell a) (by omega) (node_cell a)
  have i1 := ofNat_eq_iff h (cell a + 1#32) (by omega) (by rw [node_cell_succ, c1.1])
  unfold hat Scalar.select IntOp.cmpi
  simp only [ofBool_one, beq_iff_eq, i0, i1, zero_eq]

/-! ## Finiteness of the weights -/

theorem frac_real (a : EReal) (ha : ∃ r : ℝ, a = (r : EReal)) : ∃ r : ℝ, frac a = (r : EReal) := by
  obtain ⟨r, rfl⟩ := ha
  exact ⟨r * 15 - ((cell (r : EReal)).toInt : ℝ), by
    unfold frac pos; rw [scale_eq, ← EReal.coe_mul, ← EReal.coe_sub]⟩

/-! ## The law -/

/-- THE LAW: for finite positions and a finite grid, the double sum over all 256 nodes against the outer product of the
    two two-hot weight vectors is the blend of the four nodes around the sample. Every node other than the cell's row
    or its neighbour row, and in those rows every node other than the cell's column or its neighbour, has weight zero;
    the four terms left are the blend with the row weights distributed over the column blend, which is `ring` on reals. -/
theorem hat_sum (M : Fin 16 → Fin 16 → EReal) (a b : EReal) (ha : ∃ r : ℝ, a = (r : EReal)) (hb : ∃ r : ℝ, b = (r : EReal))
    (hM : ∀ h w, ∃ r : ℝ, M h w = (r : EReal)) :
    ∑ h : Fin 16, ∑ w : Fin 16, (hat b h * hat a w) * M h w = pix M a b := by
  have inner : ∀ h : Fin 16, ∑ w : Fin 16, (hat b h * hat a w) * M h w
      = (hat b h * (one - frac a)) * M h (node (cell a)) + (hat b h * frac a) * M h (node (cell a + 1#32)) := by
    intro h
    rw [Finset.sum_eq_add (node (cell a)) (node (cell a + 1#32)) (node_ne a)]
    · rw [hat_eq a (node (cell a)), if_pos rfl, hat_eq a (node (cell a + 1#32)), if_neg (node_ne a).symm, if_pos rfl]
    · intro w _ hw
      rw [hat_eq a w, if_neg hw.1, if_neg hw.2, mul_zero, zero_mul]
    · intro h'; exact absurd (Finset.mem_univ _) h'
    · intro h'; exact absurd (Finset.mem_univ _) h'
  simp only [inner]
  rw [Finset.sum_eq_add (node (cell b)) (node (cell b + 1#32)) (node_ne b)]
  · rw [hat_eq b (node (cell b)), if_pos rfl, hat_eq b (node (cell b + 1#32)), if_neg (node_ne b).symm, if_pos rfl]
    obtain ⟨fa, hfa⟩ := frac_real a ha
    obtain ⟨fb, hfb⟩ := frac_real b hb
    obtain ⟨m00, h00⟩ := hM (node (cell b)) (node (cell a))
    obtain ⟨m01, h01⟩ := hM (node (cell b)) (node (cell a + 1#32))
    obtain ⟨m10, h10⟩ := hM (node (cell b + 1#32)) (node (cell a))
    obtain ⟨m11, h11⟩ := hM (node (cell b + 1#32)) (node (cell a + 1#32))
    unfold pix blend
    rw [hfa, hfb, h00, h01, h10, h11, one_eq]
    simp only [← EReal.coe_sub, ← EReal.coe_mul, ← EReal.coe_add]
    congr 1
    ring
  · intro h _ hh
    rw [hat_eq b h, if_neg hh.1, if_neg hh.2]
    simp only [zero_mul, add_zero]
  · intro h'; exact absurd (Finset.mem_univ _) h'
  · intro h'; exact absurd (Finset.mem_univ _) h'

end Cert.Bilinear

end
-- ==== Proof.Finite.lean ====
import proofs.«146209_j30502857736195_1_alg».proof.Pre_finite_inputs
import Idealize.ShloMosaic.Lib.ReduceAll
import Idealize.ShloMosaic.Lib.ValueIdx
import Idealize.ShloMosaic.PureOps.Ideal
/-!
# Finiteness of the inputs

The precondition is the conjunction of three tests, one per input array, each of the form
"every element satisfies |x| < +∞".  Over the extended reals the absolute value of either
infinity is +∞, which is not strictly below +∞, so an element that passes the test is an
ordinary real number.  This file reads the conjunction apart, reads each "for all" back to
its elements, and concludes that every element of every input is real.
-/
noncomputable section
namespace Cert.Bilinear.Finite
open Idealize.ShloMosaic

/-- The word `0x7F800000` has sign 0, all eight exponent bits set and a zero significand:
    it denotes +∞. -/
theorem top_word : Ideal.ofBits .f32 0x7F800000#32 = (⊤ : EReal) := by
  simp [Ideal.ofBits, Ideal.ieee]

/-- One element: if |a| < +∞ holds then `a` is real.  For a = -∞ and a = +∞ the absolute
    value max a (-a) is +∞ and the strict comparison with +∞ fails; the remaining case is a
    real number, which is its own witness. -/
theorem real_of_abs_lt_top (a : EReal)
    (h : FloatOps.cmpf (F := Ideal) .olt (FloatOps.hostAbsf (F := Ideal) (φ := .f32) a)
          (Ideal.ofBits .f32 0x7F800000#32) = 1#1) :
    ∃ r : ℝ, a = (r : EReal) := by
  rw [top_word] at h
  induction a using EReal.rec with
  | bot => exact absurd h (by decide)
  | top => exact absurd h (by decide)
  | coe r => exact ⟨r, rfl⟩

/-- One array of any shape: if the conjunction over all its elements of |x i| < +∞ is true,
    then every element is real.  A conjunction that came out true met only true terms, the
    comparison and the absolute value act element by element, and the scalar +∞ broadcast
    to the array's shape is +∞ at every index; so each element passes the one-element test. -/
theorem real_of_all {s u : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < u.numel) (init : IVec u 1)
    (e : Host.reduce IntOp.andi
          (cmpf .olt (Host.absf x)
            (broadcastInDim s ![] hb (constant (F := Ideal) Cert.Pre_finite_inputs.S_ .f32 0x7F800000#32)))
          init hr hu ValueIdx.ix0 = 1#1)
    (i : s.Idx) : ∃ r : ℝ, x i = (r : EReal) := by
  -- a shape of rank 0 has exactly one index
  haveI : Subsingleton Cert.Pre_finite_inputs.S_.Idx := ⟨fun a b => funext fun d => d.elim0⟩
  have h1 := Host.reduce_andi_all _ init hr hu ValueIdx.ix0 e i
  exact real_of_abs_lt_top (x i) h1

/-- If the precondition evaluates to true, every element of each of the three inputs is a
    real number: the outer conjunction is true only when its three parts are, and each part
    is the all-elements test of one input. -/
theorem finite_of_pre [Cert.Pre_finite_inputs.Facts] (x0 : FVec Ideal Cert.Pre_finite_inputs.S2048x16x16x64 .f32)
    (x1 x2 : FVec Ideal Cert.Pre_finite_inputs.S2048x256 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all x0 _ _ _ _ h0', real_of_all x1 _ _ _ _ h1, real_of_all x2 _ _ _ _ h2⟩

end Cert.Bilinear.Finite
end
-- ==== Proof.KernelBlock.lean ====
/-
  The value the kernel body stores, read at one index of its output block.

  The body fetches bilinearly by a matrix product. For complex `c` and sample `p` it forms a row of 256 weights, one per
  node `(h, w)` of the 16 × 16 grid laid out row-major at position `16·h + w`: the product of a ROW weight of `h` (from
  the `v` position of the sample) and a COLUMN weight of `w` (from the `u` position). Each of the two is a two-hot
  vector: `1 − frac` at the cell, `frac` at the cell's neighbour, `0` at the other fourteen nodes. The grid block of
  complex `c` is flattened the same way into a 256 × 64 matrix (node position by feature), and the result at
  `(c, p, f)` is the contraction of the weight row against column `f` of that matrix, batched over `c`.

  So the stored value at `(c, p, f)` is the sum over `k < 256` of `weight(c, p, k) · grid(c, k, f)`; writing
  `k = 16·h + w` turns it into the double sum over `h, w < 16` of `hat_v(h) · hat_u(w) · grid(c, h, w, f)`. Nothing here
  uses finiteness: the sum runs over all 256 nodes, zero weights included, and no term is moved across another.

  The steps: the one store covers the whole output buffer, so the buffer is the stored payload (`out_eq_pay`); the
  batched contraction read at an index (`matmul_at`); the sum over 256 positions as a double sum (`sum_split`); the
  reshapes and broadcasts read at an index (section `Layout`); the two weight vectors at an index are `hat`
  (`row_weight`, `col_weight`); and `out_apply` puts them together.
-/
import proofs.«146209_j30502857736195_1_alg».proof.Proof.Gen.KernelIdeal.Frame
import proofs.«146209_j30502857736195_1_alg».proof.Proof.Spec
import Idealize.ShloMosaic.Lib.Pipeline.Value
import Idealize.ShloMosaic.Lib.ValueIdx
import Idealize.ShloMosaic.PureOps.Ideal.Laws
import Mathlib.Logic.Equiv.Fin.Basic
import Mathlib.Data.Fintype.BigOperators
import Mathlib.Algebra.BigOperators.Group.Finset.Defs

noncomputable section
namespace Cert.KernelIdeal.Block
open Idealize.ShloMosaic Idealize.ShloMosaic.ValueIdx Cert.Bilinear Cert.KernelIdeal Cert.KernelIdeal.Gen
open scoped BigOperators

/-! ## The output buffer is the stored payload -/

/-- The zero offsets of a rank-2 rectangle, as a constant function. -/
theorem zero_offsets2 : (![0, 0] : Fin 2 → Nat) = fun _ => 0 := funext fun a => by fin_cases a <;> rfl
/-- The zero offsets of a rank-3 rectangle, as a constant function. -/
theorem zero_offsets3 : (![0, 0, 0] : Fin 3 → Nat) = fun _ => 0 := funext fun a => by fin_cases a <;> rfl
/-- The zero offsets of a rank-4 rectangle, as a constant function. -/
theorem zero_offsets4 : (![0, 0, 0, 0] : Fin 4 → Nat) = fun _ => 0 := funext fun a => by fin_cases a <;> rfl

/-- One store through the whole-buffer rectangle at offset zero leaves its payload, and a load through the whole-buffer
    rectangle at offset zero reads the buffer: the output block is the matrix product of the weights built from the two
    position blocks with the grid block. -/
theorem out_eq_pay (x0 : Vec Ideal S64x16x16x64 .f32) (x1 x2 : Vec Ideal S64x256 .f32) :
    out0_3 x0 x1 x2 = k0_pay1 (k0_pay4 x1) (k0_pay5 x1) (k0_pay6 x2) (iota .tc S64x256x16 32 [2] iota_S64x256x16_d2_w32) (k0_pay7 x1) x0 := by
  unfold out0_3
  rw [View.canon_unit_zero zero_offsets3]
  simp only [View.ld_unit_zero (S := S64x256) zero_offsets2, View.ld_unit_zero (S := S64x16x16x64) zero_offsets4]

/-! ## The batched contraction at an index

The product contracts axis 2 of the left operand `[64, 256, 256]` with axis 1 of the right operand `[64, 256, 64]`, batched
over axis 0 of both. At result index `(c, p, f)` and contraction position `k` the left operand is read at `(c, p, k)` and
the right at `(c, k, f)`: the six coordinates, one lemma each. -/

theorem lhs_0 (j : S64x256x64.Idx) (k : dot_S64x256x256_S64x256x64_S64x256x64_2_1_1_2_0_0.contr.Idx) :
    (dot_S64x256x256_S64x256x64_S64x256x64_2_1_1_2_0_0.lhsIdx j k 0 : ℕ) = j 0 := by
  simp [DotDims.lhsIdx, dot_S64x256x256_S64x256x64_S64x256x64_2_1_1_2_0_0]; rfl
theorem lhs_1 (j : S64x256x64.Idx) (k : dot_S64x256x256_S64x256x64_S64x256x64_2_1_1_2_0_0.contr.Idx) :
    (dot_S64x256x256_S64x256x64_S64x256x64_2_1_1_2_0_0.lhsIdx j k 1 : ℕ) = j 1 := by
  simp [DotDims.lhsIdx, dot_S64x256x256_S64x256x64_S64x256x64_2_1_1_2_0_0]; rfl
theorem lhs_2 (j : S64x256x64.Idx) (k : dot_S64x256x256_S64x256x64_S64x256x64_2_1_1_2_0_0.contr.Idx) :
    (dot_S64x256x256_S64x256x64_S64x256x64_2_1_1_2_0_0.lhsIdx j k 2 : ℕ) = k ⟨0, by decide⟩ := by
  simp [DotDims.lhsIdx, dot_S64x256x256_S64x256x64_S64x256x64_2_1_1_2_0_0]; rfl
theorem rhs_0 (j : S64x256x64.Idx) (k : dot_S64x256x256_S64x256x64_S64x256x64_2_1_1_2_0_0.contr.Idx) :
    (dot_S64x256x256_S64x256x64_S64x256x64_2_1_1_2_0_0.rhsIdx j k 0 : ℕ) = j 0 := by
  simp [DotDims.rhsIdx, dot_S64x256x256_S64x256x64_S64x256x64_2_1_1_2_0_0]; rfl
theorem rhs_1 (j : S64x256x64.Idx) (k : dot_S64x256x256_S64x256x64_S64x256x64_2_1_1_2_0_0.contr.Idx) :
    (dot_S64x256x256_S64x256x64_S64x256x64_2_1_1_2_0_0.rhsIdx j k 1 : ℕ) = k ⟨0, by decide⟩ := by
  simp [DotDims.rhsIdx, dot_S64x256x256_S64x256x64_S64x256x64_2_1_1_2_0_0]; rfl
theorem rhs_2 (j : S64x256x64.Idx) (k : dot_S64x256x256_S64x256x64_S64x256x64_2_1_1_2_0_0.contr.Idx) :
    (dot_S64x256x256_S64x256x64_S64x256x64_2_1_1_2_0_0.rhsIdx j k 2 : ℕ) = j 2 := by
  simp [DotDims.rhsIdx, dot_S64x256x256_S64x256x64_S64x256x64_2_1_1_2_0_0]; rfl

/-- The product into the zero accumulator, at `(c, p, f)`: the sum over the 256 contraction positions of the left
    operand at `(c, p, k)` times the right operand at `(c, k, f)`. -/
theorem matmul_at (L : FVec Ideal S64x256x256 .bf16) (R : FVec Ideal S64x256x64 .bf16) (c : Fin 64) (p : Fin 256) (f : Fin 64) :
    matmul dot_S64x256x256_S64x256x64_S64x256x64_2_1_1_2_0_0 none L R (constant (F := Ideal) S64x256x64 .f32 0x00000000#32) (ix3 c p f)
      = ∑ k : Fin 256, L (ix3 c p k) * R (ix3 c k f) := by
  refine (Ideal.matmul_constant_zero_apply dot_S64x256x256_S64x256x64_S64x256x64_2_1_1_2_0_0 none L R (ix3 c p f)).trans ?_
  rw [← Equiv.sum_comp (contrEquiv1 dot_S64x256x256_S64x256x64_S64x256x64_2_1_1_2_0_0 256 rfl rfl).symm]
  refine Finset.sum_congr rfl fun k _ => ?_
  congr 2
  · funext a; apply Fin.ext
    match a with
    | ⟨0, _⟩ => exact lhs_0 _ _
    | ⟨1, _⟩ => exact lhs_1 _ _
    | ⟨2, _⟩ => exact (lhs_2 _ _).trans (contrEquiv1_symm_val _ 256 rfl rfl k)
  · funext a; apply Fin.ext
    match a with
    | ⟨0, _⟩ => exact rhs_0 _ _
    | ⟨1, _⟩ => exact (rhs_1 _ _).trans (contrEquiv1_symm_val _ 256 rfl rfl k)
    | ⟨2, _⟩ => exact rhs_2 _ _

/-- A sum over the 256 row-major positions of a 16 × 16 grid is the double sum over rows and columns: every
    `k < 256` is `16·h + w` for exactly one pair `h, w < 16`. -/
theorem sum_split {M : Type*} [AddCommMonoid M] (g : Fin 256 → M) :
    ∑ k, g k = ∑ h : Fin 16, ∑ w : Fin 16, g ⟨16 * h.val + w.val, by omega⟩ := by
  show ∑ k : Fin (16 * 16), g k = _
  rw [← Equiv.sum_comp (finProdFinEquiv (m := 16) (n := 16)) g, Fintype.sum_prod_type]
  refine Finset.sum_congr rfl fun h _ => Finset.sum_congr rfl fun w _ => congrArg g (Fin.ext ?_)
  show w.val + 16 * h.val = 16 * h.val + w.val
  omega

/-! ## The reshapes and broadcasts at an index

A reshape keeps the row-major position; a broadcast along a unit axis reads that axis at `0`. -/

section Layout
variable {α : Type}

/-- The weights `[64, 256, 16, 16]` flattened to `[64, 256, 256]`: position `16·h + w` is node `(h, w)`. -/
theorem cast_w (x : S64x256x16x16.Idx → α) (c : Fin 64) (p : Fin 256) (h w : Fin 16) :
    shapeCast S64x256x256 x shapeCasts_S64x256x16x16_S64x256x256 (ix3 c p ⟨16 * h.val + w.val, by omega⟩) = x (ix4 c p h w) := by
  refine shapeCast_apply x _ _ (ix4 c p h w) ?_
  rw [Shape.rowMajor_val_four, Shape.rowMajor_val_three]
  show ((c.val * 256 + p.val) * 16 + h.val) * 16 + w.val = (c.val * 256 + p.val) * 256 + (16 * h.val + w.val)
  omega

/-- The grid block `[64, 16, 16, 64]` flattened to `[64, 256, 64]`: row `16·h + w` is node `(h, w)`. -/
theorem cast_g (x : S64x16x16x64.Idx → α) (c : Fin 64) (h w : Fin 16) (f : Fin 64) :
    shapeCast S64x256x64 x shapeCasts_S64x16x16x64_S64x256x64 (ix3 c ⟨16 * h.val + w.val, by omega⟩ f) = x (ix4 c h w f) := by
  refine shapeCast_apply x _ _ (ix4 c h w f) ?_
  rw [Shape.rowMajor_val_four, Shape.rowMajor_val_three]
  show ((c.val * 16 + h.val) * 16 + w.val) * 64 + f.val = (c.val * 256 + (16 * h.val + w.val)) * 64 + f.val
  omega

/-- A trailing unit axis added to `[64, 256, 16]`. -/
theorem cast_col1 (x : S64x256x16.Idx → α) (c : Fin 64) (p : Fin 256) (h : Fin 16) (z : Fin 1) :
    shapeCast S64x256x16x1 x shapeCasts_S64x256x16_S64x256x16x1 (ix4 c p h z) = x (ix3 c p h) := by
  refine shapeCast_apply x _ _ (ix3 c p h) ?_
  rw [Shape.rowMajor_val_four, Shape.rowMajor_val_three]
  show (c.val * 256 + p.val) * 16 + h.val = ((c.val * 256 + p.val) * 16 + h.val) * 1 + z.val
  omega

/-- A unit axis added to `[64, 256, 16]` before its last axis. -/
theorem cast_row1 (x : S64x256x16.Idx → α) (c : Fin 64) (p : Fin 256) (z : Fin 1) (w : Fin 16) :
    shapeCast S64x256x1x16 x shapeCasts_S64x256x16_S64x256x1x16 (ix4 c p z w) = x (ix3 c p w) := by
  refine shapeCast_apply x _ _ (ix3 c p w) ?_
  rw [Shape.rowMajor_val_four, Shape.rowMajor_val_three]
  show (c.val * 256 + p.val) * 16 + w.val = ((c.val * 256 + p.val) * 1 + z.val) * 16 + w.val
  omega

/-- A trailing unit axis added to `[64, 256]`. -/
theorem cast_unit (x : S64x256.Idx → α) (c : Fin 64) (p : Fin 256) (z : Fin 1) :
    shapeCast S64x256x1 x shapeCasts_S64x256_S64x256x1 (ix3 c p z) = x (ix2 c p) := by
  refine shapeCast_apply x _ _ (ix2 c p) ?_
  rw [Shape.rowMajor_val_two, Shape.rowMajor_val_three]
  show c.val * 256 + p.val = (c.val * 256 + p.val) * 1 + z.val
  omega

/-- The row weights repeated along the columns: `[64, 256, 16, 1]` to `[64, 256, 16, 16]`. -/
theorem bcast_col (x : S64x256x16x1.Idx → α) (c : Fin 64) (p : Fin 256) (h w : Fin 16) :
    broadcastTo S64x256x16x16 x broadcasts_S64x256x16x1_S64x256x16x16 (ix4 c p h w) = x (ix4 c p h (0 : Fin 1)) := by
  refine broadcastTo_apply x _ _ (ix4 c p h (0 : Fin 1)) fun a => ?_
  match a with
  | ⟨0, _⟩ => rfl
  | ⟨1, _⟩ => rfl
  | ⟨2, _⟩ => rfl
  | ⟨3, _⟩ => rfl

/-- The column weights repeated along the rows: `[64, 256, 1, 16]` to `[64, 256, 16, 16]`. -/
theorem bcast_row (x : S64x256x1x16.Idx → α) (c : Fin 64) (p : Fin 256) (h w : Fin 16) :
    broadcastTo S64x256x16x16 x broadcasts_S64x256x1x16_S64x256x16x16 (ix4 c p h w) = x (ix4 c p (0 : Fin 1) w) := by
  refine broadcastTo_apply x _ _ (ix4 c p (0 : Fin 1) w) fun a => ?_
  match a with
  | ⟨0, _⟩ => rfl
  | ⟨1, _⟩ => rfl
  | ⟨2, _⟩ => rfl
  | ⟨3, _⟩ => rfl

/-- A per-sample value repeated over the 16 nodes of an axis: `[64, 256, 1]` to `[64, 256, 16]`. -/
theorem bcast_unit (x : S64x256x1.Idx → α) (c : Fin 64) (p : Fin 256) (h : Fin 16) :
    broadcastTo S64x256x16 x broadcasts_S64x256x1_S64x256x16 (ix3 c p h) = x (ix3 c p (0 : Fin 1)) := by
  refine broadcastTo_apply x _ _ (ix3 c p (0 : Fin 1)) fun a => ?_
  match a with
  | ⟨0, _⟩ => rfl
  | ⟨1, _⟩ => rfl
  | ⟨2, _⟩ => rfl

end Layout

/-- An integer comparison of vectors compares the elements. -/
theorem cmpi_apply {s : Shape} {n : Nat} (q : CmpIPredicate) (a b : IVec s n) (i : s.Idx) :
    cmpi q a b i = IntOp.cmpi q (a i) (b i) := rfl
/-- An integer sum of vectors adds the elements. -/
theorem addi_apply {s : Shape} {n : Nat} (a b : IVec s n) (i : s.Idx) : addi a b i = IntOp.addi (a i) (b i) := rfl

/-! ## The two weight vectors at an index

Along an axis of 16 nodes the weight of node `h` for a sample is chosen by comparing `h` (the node counter along the axis)
with the sample's cell and with the cell plus one: `1 − frac` on the first match, `frac` on the second, `0` otherwise. The
cell and the fraction are per-sample numbers repeated over the nodes, so at `(c, p, h)` every operand is read at the
sample `(c, p)` and the selection is `hat` of the sample's position at `h`. -/

/-- The node counter along the last axis of `[64, 256, 16]` reads its coordinate. -/
theorem iota_at (c : Fin 64) (p : Fin 256) (h : Fin 16) :
    iota .tc S64x256x16 32 [2] iota_S64x256x16_d2_w32 (ix3 c p h) = BitVec.ofNat 32 h.val :=
  iota_single_apply .tc S64x256x16 32 2 iota_S64x256x16_d2_w32 (ix3 c p h)

/-- The row weights (from the second position block) at `(c, p, h)`: the two-hot weight of node `h`. -/
theorem row_weight (x2 : Vec Ideal S64x256 .f32) (c : Fin 64) (p : Fin 256) (h : Fin 16) :
    k0_pay6 x2 (ix3 c p h) = hat (x2 (ix2 c p)) h := by
  unfold k0_pay6 hat
  simp only [truncf_apply, select_apply, cmpi_apply, addi_apply, subf_apply, bcast_unit, shapeCast_self, cast_unit]
  rw [iota_at]
  rfl

/-- The column weights as the product's payload builds them, from the fraction `v20` and the cell `v25` of each sample
    (each with a trailing unit axis), the node counter `v43` and the comparison `v45` of the counter with the cell. -/
def colW (v20 : FVec Ideal S64x256x1 .f32) (v25 : IVec S64x256x1 32) (v43 : IVec S64x256x16 32) (v45 : IVec S64x256x16 1) :
    FVec Ideal S64x256x16 .f32 :=
  select v45
    (broadcastTo S64x256x16 (shapeCast S64x256x1 (subf (broadcast S64x256x1 (Scalar.ofBits (F := Ideal) .f32 0x3F800000#32)) v20)
      shapeCasts_S64x256x1_S64x256x1) broadcasts_S64x256x1_S64x256x16)
    (select (cmpi .eq v43 (broadcastTo S64x256x16 (addi v25 (broadcast S64x256x1 1#32)) broadcasts_S64x256x1_S64x256x16))
      (broadcastTo S64x256x16 (shapeCast S64x256x1 v20 shapeCasts_S64x256x1_S64x256x1) broadcasts_S64x256x1_S64x256x16)
      (broadcast S64x256x16 (Scalar.ofBits (F := Ideal) .f32 0x00000000#32)))

/-- The column weights (from the first position block) at `(c, p, w)`: the two-hot weight of node `w`. -/
theorem col_weight (x1 : Vec Ideal S64x256 .f32) (c : Fin 64) (p : Fin 256) (w : Fin 16) :
    colW (k0_pay4 x1) (k0_pay5 x1) (iota .tc S64x256x16 32 [2] iota_S64x256x16_d2_w32) (k0_pay7 x1) (ix3 c p w)
      = hat (x1 (ix2 c p)) w := by
  unfold colW k0_pay7 k0_pay5 k0_pay4 hat
  simp only [select_apply, cmpi_apply, addi_apply, subf_apply, bcast_unit, shapeCast_self, cast_unit]
  rw [iota_at]
  rfl

/-! ## The stored value -/

/-- What the kernel body stores at `(c, p, f)` of its output block, from the three input blocks: the full double sum
    over the 16 × 16 nodes of complex `c`'s grid against the outer product of the row weights (from the `v` position)
    and the column weights (from the `u` position) of sample `p`. -/
theorem out_apply (x0 : Vec Ideal S64x16x16x64 .f32) (x1 x2 : Vec Ideal S64x256 .f32) (c : Fin 64) (p : Fin 256) (f : Fin 64) :
    out0_3 x0 x1 x2 (ix3 c p f)
      = ∑ h : Fin 16, ∑ w : Fin 16, (hat (x2 (ix2 c p)) h * hat (x1 (ix2 c p)) w) * x0 (ix4 c h w f) := by
  rw [out_eq_pay]
  unfold k0_pay1
  refine (matmul_at _ _ c p f).trans ?_
  rw [sum_split]
  refine Finset.sum_congr rfl fun h _ => Finset.sum_congr rfl fun w _ => ?_
  simp only [cast_w, cast_g, mulf_apply, bcast_col, bcast_row, cast_col1, cast_row1, truncf_apply]
  show k0_pay6 x2 (ix3 c p h)
      * colW (k0_pay4 x1) (k0_pay5 x1) (iota .tc S64x256x16 32 [2] iota_S64x256x16_d2_w32) (k0_pay7 x1) (ix3 c p w)
      * x0 (ix4 c h w f) = _
  rw [row_weight, col_weight]

end Cert.KernelIdeal.Block
end
-- ==== Proof.Blocks.lean ====
/-
  From blocks of 64 complexes to the whole result array.

  The 2048 complexes are worked through in 32 steps. Step `t` is handed complexes `64 t … 64 t + 63` of the grid
  array and of the two position arrays, each whole along its other axes (all 16 × 16 nodes and 64 features; all 256
  samples), and hands back the same 64 complexes of the result, all 256 samples and 64 features of each. So local
  complex `c'` of step `t` is complex `64 t + c'` of every array (`gidx`), and the other coordinates pass through
  unchanged (`blk0`, `blk1`, `blk2`).

  Suppose each step, on the blocks it is handed, produces for every local complex, sample and feature the bilinear
  sample `gAt` of the complex that local complex is (the hypothesis `hblk`). Then what step `t` hands back is
  block `t` of the array `G` of all the samples (`flushed_at`, `flushed_eq`). Complex `r` lies in block
  `r / 64`, since `64 (r / 64) ≤ r < 64 (r / 64) + 64`, and along the other two axes a block is the whole axis: every
  index of the result array is in some step's block (`cover`). Distinct steps hand back distinct blocks, so the
  result array ends holding `G` (`final_of_blocks`).
-/
import proofs.«146209_j30502857736195_1_alg».proof.Proof.Gen.KernelIdeal.Value
import proofs.«146209_j30502857736195_1_alg».proof.Proof.Spec
import Idealize.ShloMosaic.Lib.Pipeline.Value
import Idealize.ShloMosaic.Lib.ValueIdx

noncomputable section
namespace Cert.KernelIdeal.Blocks
open Idealize.ShloMosaic Idealize.ShloMosaic.TcCoe Idealize.ShloMosaic.ValueIdx Idealize.SL.Sem Cert.Bilinear
open Cert.KernelIdeal Cert.KernelIdeal.Gen Cert.KernelIdeal.Value
open Idealize.ShloMosaic.Pipeline (Dat)

variable (m : (ℓ : Loc nD τ sig) → Buf (Elt Ideal) ℓ)

/-- The complex that local complex `c'` of grid point `t`'s block is: blocks of 64 complexes, in order. -/
def gidx (t : Fin cfg0.N) (c' : Fin 64) : Fin 2048 := ⟨64 * t.val + c'.val, by have := t.isLt; have : cfg0.N = 32 := rfl; omega⟩

/-- Where each of the four arrays' blocks sit at step `t`, checked over the 32 steps: along the complexes the block
    number is `t` itself, along every other axis it is 0 (there the block is the whole axis). -/
theorem block_index : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = t.val ∧ win0_3.index t (1 : Fin 3) = 0 ∧ win0_3.index t (2 : Fin 3) = 0) :=
  (by decide +kernel : ∀ t : Fin grid0.N, _)

/-- The grid block of step `t`: node `(h, w)`, feature `f` of local complex `c'` is that node and feature of complex
    `64 t + c'`. A block's coordinate on an axis is (block number) × (block extent) + (coordinate inside the block):
    `t · 64 + c'` along the complexes, `0 · 16 + h`, `0 · 16 + w`, `0 · 64 + f` along the others. -/
theorem blk0 (c : Dev nD) (t : Fin cfg0.N) (c' : Fin 64) (h w : Fin 16) (f : Fin 64) :
    iblk m c 0 t (ix4 c' h w f) = V m c main_arg0 (ix4 (gidx t c') h w f) := by
  obtain ⟨⟨e0, e1, e2, e3⟩, -⟩ := block_index t
  show V m c main_arg0 (((cfg0.win 0).blk t).view.emb (ix4 c' h w f)) = V m c main_arg0 (ix4 (gidx t c') h w f)
  refine congrArg _ ?_
  funext a
  apply Fin.ext
  match a with
  | ⟨0, _⟩ => show win0_0.index t (0 : Fin 4) * 64 + 1 * c'.val = 64 * t.val + c'.val; omega
  | ⟨1, _⟩ => show win0_0.index t (1 : Fin 4) * 16 + 1 * h.val = h.val; omega
  | ⟨2, _⟩ => show win0_0.index t (2 : Fin 4) * 16 + 1 * w.val = w.val; omega
  | ⟨3, _⟩ => show win0_0.index t (3 : Fin 4) * 64 + 1 * f.val = f.val; omega

/-- The column-position block of step `t`: sample `p` of local complex `c'` is sample `p` of complex `64 t + c'`. -/
theorem blk1 (c : Dev nD) (t : Fin cfg0.N) (c' : Fin 64) (p : Fin 256) :
    iblk m c 1 t (ix2 c' p) = V m c main_arg1 (ix2 (gidx t c') p) := by
  obtain ⟨-, ⟨e0, e1⟩, -⟩ := block_index t
  show V m c main_arg1 (((cfg0.win 1).blk t).view.emb (ix2 c' p)) = V m c main_arg1 (ix2 (gidx t c') p)
  refine congrArg _ ?_
  funext a
  apply Fin.ext
  match a with
  | ⟨0, _⟩ => show win0_1.index t (0 : Fin 2) * 64 + 1 * c'.val = 64 * t.val + c'.val; omega
  | ⟨1, _⟩ => show win0_1.index t (1 : Fin 2) * 256 + 1 * p.val = p.val; omega

/-- The row-position block of step `t`, likewise. -/
theorem blk2 (c : Dev nD) (t : Fin cfg0.N) (c' : Fin 64) (p : Fin 256) :
    iblk m c 2 t (ix2 c' p) = V m c main_arg2 (ix2 (gidx t c') p) := by
  obtain ⟨-, -, ⟨e0, e1⟩, -⟩ := block_index t
  show V m c main_arg2 (((cfg0.win 2).blk t).view.emb (ix2 c' p)) = V m c main_arg2 (ix2 (gidx t c') p)
  refine congrArg _ ?_
  funext a
  apply Fin.ext
  match a with
  | ⟨0, _⟩ => show win0_2.index t (0 : Fin 2) * 64 + 1 * c'.val = 64 * t.val + c'.val; omega
  | ⟨1, _⟩ => show win0_2.index t (1 : Fin 2) * 256 + 1 * p.val = p.val; omega

/-- What step `t` hands back at local complex `c'`, sample `p`, feature `f` is the entry of `G` at complex
    `64 t + c'`, the same sample and feature: the result block is the whole of what the step computed (nothing is
    clipped, 64 divides 2048), the step computed `gAt` there by `hblk`, and the block's index `(c', p, f)` sits at
    `(t · 64 + c', 0 · 256 + p, 0 · 64 + f)` in the array. -/
theorem flushed_at (c : Dev nD)
    (hblk : ∀ (t : Fin cfg0.N) (c' : Fin 64) (p : Fin 256) (f : Fin 64),
      out0_3 (iblk m c 0 t) (iblk m c 1 t) (iblk m c 2 t) (ix3 c' p f)
        = gAt (V m c main_arg0) (V m c main_arg1) (V m c main_arg2) (gidx t c') p f)
    (t : Fin cfg0.N) (c' : Fin 64) (p : Fin 256) (f : Fin 64) :
    (dats m 0 c).flushed 3 t (ix3 c' p f)
      = ((cfg0.win 3).blk t).view.read (Elt Ideal) (G (V m c main_arg0) (V m c main_arg1) (V m c main_arg2)) (ix3 c' p f) := by
  rw [Value.flushed3]
  obtain ⟨-, -, -, e0, e1, e2⟩ := block_index t
  show out0_3 (iblk m c 0 t) (iblk m c 1 t) (iblk m c 2 t) (ix3 c' p f)
    = G (V m c main_arg0) (V m c main_arg1) (V m c main_arg2) (((cfg0.win 3).blk t).view.emb (ix3 c' p f))
  rw [hblk t c' p f, ← G_apply]
  refine congrArg _ ?_
  funext a
  apply Fin.ext
  match a with
  | ⟨0, _⟩ => show 64 * t.val + c'.val = win0_3.index t (0 : Fin 3) * 64 + 1 * c'.val; omega
  | ⟨1, _⟩ => show p.val = win0_3.index t (1 : Fin 3) * 256 + 1 * p.val; omega
  | ⟨2, _⟩ => show f.val = win0_3.index t (2 : Fin 3) * 64 + 1 * f.val; omega

/-- So what step `t` hands back is block `t` of `G`: every index of the block is a local complex, a sample and a
    feature. -/
theorem flushed_eq (c : Dev nD)
    (hblk : ∀ (t : Fin cfg0.N) (c' : Fin 64) (p : Fin 256) (f : Fin 64),
      out0_3 (iblk m c 0 t) (iblk m c 1 t) (iblk m c 2 t) (ix3 c' p f)
        = gAt (V m c main_arg0) (V m c main_arg1) (V m c main_arg2) (gidx t c') p f)
    (t : Fin cfg0.N) :
    (dats m 0 c).flushed 3 t
      = ((cfg0.win 3).blk t).view.read (Elt Ideal) (G (V m c main_arg0) (V m c main_arg1) (V m c main_arg2)) := by
  refine funext fun (y : S64x256x64.Idx) => ?_
  exact ((congrArg _ (eq_ix3 y)).trans (flushed_at m c hblk t (y 0) (y 1) (y 2))).trans (congrArg _ (eq_ix3 y).symm)

/-- An index of the result array is in step `t`'s block iff each of its coordinates is in the block's range on that
    axis: from (block number) × (extent), for (extent) places. -/
theorem mem_blk (t : Fin cfg0.N) (i : S2048x256x64.Idx) :
    i ∈ ((cfg0.win 3).blk t).view.set ↔ ∀ a : Fin 3, win0_3.index t a * S64x256x64.size a ≤ (i a).val ∧ (i a).val < win0_3.index t a * S64x256x64.size a + S64x256x64.size a := by
  show i ∈ ((View.whole main_v0).slice (win0_3.rect t)).set ↔ _
  rw [View.set_slice_whole, Rect.mem_set_unit]
  exact Iff.rfl

/-- The blocks cover the result array: complex `r` lies in the block of step `r / 64`, which is below 32 since
    `r < 2048`; a sample below 256 and a feature below 64 are in every block. -/
theorem cover (i : S2048x256x64.Idx) :
    ∃ t : Fin cfg0.N, (cfg0.win 3).flush t = true ∧ i ∈ ((cfg0.win 3).blk t).view.set := by
  have hi0 : (i 0).val < 2048 := (i 0).isLt
  have hi1 : (i 1).val < 256 := (i 1).isLt
  have hi2 : (i 2).val < 64 := (i 2).isLt
  have hN : cfg0.N = 32 := rfl
  obtain ⟨t, ht⟩ : ∃ t : Fin cfg0.N, t.val = (i 0).val / 64 := ⟨⟨(i 0).val / 64, by omega⟩, rfl⟩
  obtain ⟨-, -, -, e0, e1, e2⟩ := block_index t
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- The result array after all 32 steps is `G` of the three argument arrays, provided each step computes the
    bilinear samples of its own 64 complexes: every step hands back its block of `G`, and the blocks cover the array. -/
theorem final_of_blocks (c : Dev nD)
    (hblk : ∀ (t : Fin cfg0.N) (c' : Fin 64) (p : Fin 256) (f : Fin 64),
      out0_3 (iblk m c 0 t) (iblk m c 1 t) (iblk m c 2 t) (ix3 c' p f)
        = gAt (V m c main_arg0) (V m c main_arg1) (V m c main_arg2) (gidx t c') p f) :
    (dats m 0 c).arrAt 3 cfg0.N = G (V m c main_arg0) (V m c main_arg1) (V m c main_arg2) :=
  (dats m 0 c).arrAt_eq_of_cover 3 (G (V m c main_arg0) (V m c main_arg1) (V m c main_arg2))
    (fun t _ => flushed_eq m c hblk t) cover

end Cert.KernelIdeal.Blocks
end
-- ==== Proof.KernelSampled.lean ====
/-
  The kernel's result array is the bilinear sample array.

  Grid point `t` stages block `t` of each argument (64 complexes) and stores, at local complex `c'`, sample `p` and
  feature `f`, the double sum over the 256 nodes of that complex's grid against the outer product of the row and
  column weights of the sample. Each staged element is the argument array's element at complex `64·t + c'`; the
  precondition makes every argument element finite; so by the law between the double sum and the four-node blend the
  stored number is the bilinear sample of complex `64·t + c'`, and the 32 blocks cover the result array.
-/
import proofs.«146209_j30502857736195_1_alg».proof.Defs
import proofs.«146209_j30502857736195_1_alg».proof.Proof.Gen.KernelIdeal.Value
import proofs.«146209_j30502857736195_1_alg».proof.Proof.Gen.Pre_finite_inputs
import proofs.«146209_j30502857736195_1_alg».proof.Proof.Spec
import proofs.«146209_j30502857736195_1_alg».proof.Proof.Law
import proofs.«146209_j30502857736195_1_alg».proof.Proof.Finite
import proofs.«146209_j30502857736195_1_alg».proof.Proof.KernelBlock
import proofs.«146209_j30502857736195_1_alg».proof.Proof.Blocks

noncomputable section
namespace Cert.KernelIdeal.Sampled
open Idealize.ShloMosaic Idealize.ShloMosaic.TcCoe Idealize.ShloMosaic.ValueIdx Idealize.SL.Sem Cert.Bilinear
open Cert.KernelIdeal Cert.KernelIdeal.Gen Cert.KernelIdeal.Value Cert.KernelIdeal.Blocks

variable (m : (ℓ : Loc nD τ sig) → Buf (Elt Ideal) ℓ) (ρ : Dev nD → PrngReg)

/-- What grid point `t` stores at local complex `c'`, sample `p`, feature `f` is the bilinear sample of complex
    `64·t + c'`: the body's double sum over the staged blocks, each block element read off its array, is the law's
    left side for that complex's grid, and the inputs are finite. -/
theorem block_is_sample (c : Dev nD)
    (h0 : ∀ i, ∃ r : ℝ, V m c main_arg0 i = (r : EReal)) (h1 : ∀ i, ∃ r : ℝ, V m c main_arg1 i = (r : EReal))
    (h2 : ∀ i, ∃ r : ℝ, V m c main_arg2 i = (r : EReal))
    (t : Fin cfg0.N) (c' : Fin 64) (p : Fin 256) (f : Fin 64) :
    out0_3 (iblk m c 0 t) (iblk m c 1 t) (iblk m c 2 t) (ix3 c' p f)
      = gAt (V m c main_arg0) (V m c main_arg1) (V m c main_arg2) (gidx t c') p f := by
  refine (Cert.KernelIdeal.Block.out_apply (iblk m c 0 t) (iblk m c 1 t) (iblk m c 2 t) c' p f).trans ?_
  simp only [blk0, blk1, blk2]
  exact hat_sum (fun h w => V m c main_arg0 (ix4 (gidx t c') h w f)) _ _ (h1 _) (h2 _) (fun h w => h0 _)

/-- The result array after the run is the bilinear sample array of the arguments. -/
theorem final3 (c : Dev nD)
    (h0 : ∀ i, ∃ r : ℝ, V m c main_arg0 i = (r : EReal)) (h1 : ∀ i, ∃ r : ℝ, V m c main_arg1 i = (r : EReal))
    (h2 : ∀ i, ∃ r : ℝ, V m c main_arg2 i = (r : EReal)) :
    (dats m 0 c).arrAt 3 cfg0.N = G (V m c main_arg0) (V m c main_arg1) (V m c main_arg2) :=
  final_of_blocks m c (block_is_sample m c h0 h1 h2)

/-- The kernel's run, with the result array named: the bilinear sample array of the arguments as launched. -/
theorem run (hpre : Cert.Pre_KernelIdeal m) :
    θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
      obtain ⟨f0, f1, f2⟩ := Cert.Bilinear.Finite.finite_of_pre _ _ _ (hpre c)
      exact ⟨(h c).1.trans (final3 m c f0 f1 f2), (h c).2⟩)
    (run_blocks m ρ)

end Cert.KernelIdeal.Sampled
end
-- ==== Proof.lean ====
/-
  Bilinear sampling of per-complex 16 × 16 feature grids: a kernel that does it as a dense matrix product against
  one-hot blends, and a reference that gathers four neighbours, compute the same array over the extended reals.

  For complex `c`, sample `p` and feature `f` both programs scale the sample's positions `u, v ∈ [0, 1]` by 15, take
  the integer part clamped into `[0, 14]` as the cell `(x0, y0)` and the remainders `fx, fy` as weights. The reference
  reads the four nodes `(y0, x0)`, `(y0, x0 + 1)`, `(y0 + 1, x0)`, `(y0 + 1, x0 + 1)` of the grid (its index
  normalisation and the read's clamp do nothing, the indices being in range) and blends them along the columns, then
  along the rows. The kernel builds a row weight vector (`1 − fy` at `y0`, `fy` at `y0 + 1`, zero elsewhere) and a
  column weight vector likewise, multiplies them into a 16 × 16 weight matrix and contracts it against the whole grid.
  The contraction's 252 vanishing terms drop out, and the four that remain are the reference's blend with the row
  weights distributed over the column blend: equal for finite inputs (Proof/Law.lean), which the precondition gives
  (Proof/Finite.lean). Proof/Spec.lean states the common function; Proof/RefValue.lean shows the reference computes it,
  Proof/KernelBlock.lean, Proof/Blocks.lean and Proof/KernelSampled.lean that the kernel does. A change of float format
  is the identity at this instance, so the kernel's bf16 operands are the f32 values.

  The frames of the two kernel programs are the generated frame certificates; the reference's frame is its run with
  the result dropped; the idealization rewrote nothing, so `preserves` is `True`.
-/
import proofs.«146209_j30502857736195_1_alg».proof.Defs
import proofs.«146209_j30502857736195_1_alg».proof.Proof.Gen.Kernel
import proofs.«146209_j30502857736195_1_alg».proof.Proof.Gen.Kernel.Skeleton
import proofs.«146209_j30502857736195_1_alg».proof.Proof.Gen.Kernel.Launch
import proofs.«146209_j30502857736195_1_alg».proof.Proof.Gen.Kernel.Points
import proofs.«146209_j30502857736195_1_alg».proof.Proof.Gen.Kernel.Frame
import proofs.«146209_j30502857736195_1_alg».proof.Proof.Gen.KernelIdeal
import proofs.«146209_j30502857736195_1_alg».proof.Proof.Gen.KernelIdeal.Skeleton
import proofs.«146209_j30502857736195_1_alg».proof.Proof.Gen.KernelIdeal.Launch
import proofs.«146209_j30502857736195_1_alg».proof.Proof.Gen.KernelIdeal.Points
import proofs.«146209_j30502857736195_1_alg».proof.Proof.Gen.KernelIdeal.Frame
import proofs.«146209_j30502857736195_1_alg».proof.Proof.Gen.ReferenceIdeal
import proofs.«146209_j30502857736195_1_alg».proof.Proof.Gen.Pre_finite_inputs
import proofs.«146209_j30502857736195_1_alg».proof.Proof.Gen.KernelIdeal.Value
import proofs.«146209_j30502857736195_1_alg».proof.Proof.Gen.ReferenceIdeal.Run
import proofs.«146209_j30502857736195_1_alg».proof.Proof.Gen.ReferenceIdeal.Read
import proofs.«146209_j30502857736195_1_alg».proof.Proof.Spec
import proofs.«146209_j30502857736195_1_alg».proof.Proof.RefValue
import proofs.«146209_j30502857736195_1_alg».proof.Proof.KernelSampled
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the bilinear sample array of their (agreeing) arguments. -/
theorem algebraic : Cert.algebraic_KernelIdeal_ReferenceIdeal := by
  intro m ρ m' ρ' hpre hagree
  refine ⟨fun c => Cert.Bilinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Sampled.run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v130_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
